-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S256x1024 : Shape := ⟨2, ![256, 1024]⟩
abbrev S2048x1024 : Shape := ⟨2, ![2048, 1024]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1024x3072, .bf16⟩
  | .hbm, ⟨7, _⟩ => ⟨S1024x1024, .bf16⟩
  | .hbm, ⟨8, _⟩ => ⟨S1x3072, .f32⟩
  | .hbm, ⟨9, _⟩ => ⟨S1x1024, .f32⟩
  | .hbm, ⟨10, _⟩ => ⟨S4096x3072, .bf16⟩
  | .hbm, ⟨11, _⟩ => ⟨S4096x1024, .f32⟩
  | .hbm, ⟨12, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_mult1 (k1_t1 : Fin k1_t1_loop.trips) : BitVec 32 :=
  let c0_i32_9 : BitVec 32 := 0#32
  let c0_i32 : BitVec 32 := 0#32
  let c1_i32 : BitVec 32 := 1#32
  let arg9 : BitVec 32 := Scf.iv c0_i32 c1_i32 k1_t1
  let c1_i32_8 : BitVec 32 := 1#32
  let v11 : BitVec 32 := Scalar.muli arg9 c1_i32_8
  let v12 : BitVec 32 := Scalar.addi c0_i32_9 v11
  let c128_i32 : BitVec 32 := 128#32
  let v13 : BitVec 32 := Scalar.muli v12 c128_i32
  v13
def k1_off1 (k1_t1 : Fin k1_t1_loop.trips) : Fin 2 → Nat :=
  let c0_10 : Index := 0#32
  let c0_i32_9 : BitVec 32 := 0#32
  let c0_i32 : BitVec 32 := 0#32
  let c1_i32 : BitVec 32 := 1#32
  let arg9 : BitVec 32 := Scf.iv c0_i32 c1_i32 k1_t1
  let c1_i32_8 : BitVec 32 := 1#32
  let v11 : BitVec 32 := Scalar.muli arg9 c1_i32_8
  let v12 : BitVec 32 := Scalar.addi c0_i32_9 v11
  let c128_i32 : BitVec 32 := 128#32
  let v13 : BitVec 32 := Scalar.muli v12 c128_i32
  let v14 : BitVec 32 := v13
  let v15 : Index := Scalar.indexCast v14
  ![0, v15.toNat]
def k1_off2 (k1_t1 : Fin k1_t1_loop.trips) : Fin 2 → Nat :=
  let c0_11 : Index := 0#32
  let c0_i32_9 : BitVec 32 := 0#32
  let c0_i32 : BitVec 32 := 0#32
  let c1_i32 : BitVec 32 := 1#32
  let arg9 : BitVec 32 := Scf.iv c0_i32 c1_i32 k1_t1
  let c1_i32_8 : BitVec 32 := 1#32
  let v11 : BitVec 32 := Scalar.muli arg9 c1_i32_8
  let v12 : BitVec 32 := Scalar.addi c0_i32_9 v11
  let c128_i32 : BitVec 32 := 128#32
  let v13 : BitVec 32 := Scalar.muli v12 c128_i32
  let v14 : BitVec 32 := v13
  let v18 : Index := Scalar.indexCast v14
  ![0, v18.toNat]
def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S2x2048x1024_S4096x1024 : S2x2048x1024.ShapeCasts S4096x1024
  bitsLt_bf16_f32 : FTy.bits .bf16 < FTy.bits .f32
  shapeCasts_S3072_S1x3072 : S3072.ShapeCasts S1x3072
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  h_S256x128 : 0 < S256x128.numel
  shapeCasts_S256x128_S256x128 : S256x128.ShapeCasts S256x128
  h_S2048x128 : 0 < S2048x128.numel
  shapeCasts_S2048x128_S2048x128 : S2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S256x128.size a ≤ S256x1024.size a
  k1_off2_inb : ∀ k1_t1 : Fin k1_t1_loop.trips, ∀ a, (k1_off2 k1_t1) a + S2048x128.size a ≤ S2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x3072.size a
  hwx1_0 : ∀ i : grid1.Coords, EltTy.bits .bf16 = 32 ∨ (Rect.block (s := S4096x3072) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x3072.size a
  hwx1_1 : ∀ i : grid1.Coords, EltTy.bits .bf16 = 32 ∨ (Rect.block (s := S4096x3072) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S4096x3072.size a
  hwx1_2 : ∀ i : grid1.Coords, EltTy.bits .bf16 = 32 ∨ (Rect.block (s := S4096x3072) S2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S4096x1024.size a
  hwx1_5 : ∀ i : grid1.Coords, EltTy.bits .f32 = 32 ∨ (Rect.block (s := S4096x1024) S256x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x64, .f32⟩
  | .hbm, ⟨38, _⟩ => ⟨S2x2048x16x64, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.K0Data.lean ====
/-
  The first pallas_call (the fused projection  qkv = x · W_in + b_in, one block of 512 rows per grid point):
  what each of its windows holds at a grid point, and the proof data of its pipeline.  The three input windows
  hold their blocks of the arrays the call is entered with (rows 512·t … 512·t+511 of x, all of W_in, all of
  b_in); the output window's staging buffer holds, after the body, the one whole-block store of the body's
  payload (the matrix product of the x block with W_in plus the broadcast bias row) of those blocks.
-/
import proofs.«401896_j14491219657281_3_alg».proof.Proof.Gen.KernelIdeal.Launch
import proofs.«401896_j14491219657281_3_alg».proof.Proof.Gen.KernelIdeal.Skeleton
import proofs.«401896_j14491219657281_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The buffers' contents on each core when a pallas_call is entered: the parameter the call's data are stated at. -/
abbrev Entry (F : FTy → Type) : Type := (c : Dev nD) → (b : Ref sig .tc) → Buf (Elt F) ((c : Thread nD τ).loc b)

variable (V : Entry F)

/-- Window `w`'s block at grid point `t` of the first call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- What the body leaves in the output window's staging buffer, from the three input blocks: its one store. -/
def out0_3 (x0 : Vec F S512x1024 .f32) (x1 : Vec F S1024x3072 .bf16) (x2 : Vec F S1x3072 .f32) : Vec F S512x3072 .bf16 :=
  View.canon [⟨r0_o, k0_pay1 (View.ld x0 r0_x) (View.ld x1 r0_w) (View.ld x2 r0_b)⟩]

/-- The proof data of the first call's pipeline on core `c`: the arrays as the call finds them; after the body each
    input's buffer at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.K1Data.lean ====
/-
  The second pallas_call (attention over head pairs, then the output projection; one block of 256 query rows per
  grid point (b, sq)): what each of its windows holds at a grid point, the contents its eight loop trips leave in
  the scratch accumulator, and the proof data of its pipeline.  Windows 0, 1, 2 are three views of ONE array, the
  projection's result qkv: the 256 query rows' first 1024 columns, and the batch's 2048 rows of the key columns
  (1024 … 2047) and of the value columns (2048 … 3071).  Trip k of the loop reads columns 128·k … 128·k+127 of the
  three blocks and stores the two heads' attention outputs side by side into the same columns of the scratch; the
  eight column bands tile the scratch, so after the loop it is one function of the three blocks.
-/
import proofs.«401896_j14491219657281_3_alg».proof.Proof.K0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Entry F)

/-- Window `w`'s block at grid point `t` of the second call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Trip `k`'s column band of a 256-row buffer (columns 128·k … 128·k+127): where it reads the queries and where it
    stores into the scratch. -/
abbrev rq (k : Fin k1_t1_loop.trips) : Rect S256x1024 := Rect.unit (s := S256x1024) (k1_off1 k) S256x128.size (k1_off1_inb k)
/-- Trip `k`'s column band of a 2048-row buffer: where it reads the keys and the values. -/
abbrev rkv (k : Fin k1_t1_loop.trips) : Rect S2048x1024 := Rect.unit (s := S2048x1024) (k1_off2 k) S2048x128.size (k1_off2_inb k)

/-- What trip `k` stores into its band of the scratch: the first head's output (softmax of the scaled scores times
    the values, columns 0 … 63 of the band) beside the second head's (columns 64 … 127). -/
def tripPay (x0 : Vec F S256x1024 .bf16) (x1 x2 : Vec F S2048x1024 .bf16) (k : Fin k1_t1_loop.trips) : FVec F S256x128 .f32 :=
  k1_pay1 (k1_pay6 (View.ld x0 (rq k)) (View.ld x1 (rkv k)) (View.ld x2 (rkv k))) (k1_pay7 (View.ld x2 (rkv k)))
    (k1_pay8 (View.ld x0 (rq k)) (View.ld x1 (rkv k)))

/-- Trip `k`'s store as a piece: its band, its payload. -/
def tripPiece (x0 : Vec F S256x1024 .bf16) (x1 x2 : Vec F S2048x1024 .bf16) (k : Fin k1_t1_loop.trips) : View.Piece (Elt F) S256x1024 .f32 :=
  ⟨rq k, tripPay x0 x1 x2 k⟩

/-- The trips as indices of the loop's eight trips. -/
abbrev trip (j : ℕ) (h : j < k1_t1_loop.trips := by decide) : Fin k1_t1_loop.trips := ⟨j, h⟩

/-- The eight trips' stores, last first. -/
def tripPieces (x0 : Vec F S256x1024 .bf16) (x1 x2 : Vec F S2048x1024 .bf16) : List (View.Piece (Elt F) S256x1024 .f32) :=
  [tripPiece x0 x1 x2 (trip 7), tripPiece x0 x1 x2 (trip 6), tripPiece x0 x1 x2 (trip 5), tripPiece x0 x1 x2 (trip 4),
   tripPiece x0 x1 x2 (trip 3), tripPiece x0 x1 x2 (trip 2), tripPiece x0 x1 x2 (trip 1), tripPiece x0 x1 x2 (trip 0)]

/-- The scratch accumulator after the loop: the eight bands' stores over whatever it held. -/
def scr (x0 : Vec F S256x1024 .bf16) (x1 x2 : Vec F S2048x1024 .bf16) : Vec F S256x1024 .f32 :=
  View.canon (tripPieces x0 x1 x2)

/-- The whole-buffer rectangles the body's tail loads and stores through. -/
abbrev r1_s : Rect S256x1024 := Rect.unit (s := S256x1024) ![0, 0] S256x1024.size inb_S256x1024_S256x1024_0_0
abbrev r1_w : Rect S1024x1024 := Rect.unit (s := S1024x1024) ![0, 0] S1024x1024.size inb_S1024x1024_S1024x1024_0_0
abbrev r1_b : Rect S1x1024 := Rect.unit (s := S1x1024) ![0, 0] S1x1024.size inb_S1x1024_S1x1024_0_0

/-- What the body leaves in the output window's staging buffer, from the five input blocks: its one store, the
    scratch's contents times the output weights plus the bias row. -/
def out1_5 (x0 : Vec F S256x1024 .bf16) (x1 x2 : Vec F S2048x1024 .bf16) (x3 : Vec F S1024x1024 .bf16) (x4 : Vec F S1x1024 .f32) :
    Vec F S256x1024 .f32 :=
  View.canon [⟨r1_s, k1_pay2 (View.ld (scr x0 x1 x2) r1_s) (View.ld x3 r1_w) (View.ld x4 r1_b)⟩]

/-- The proof data of the second call's pipeline on core `c`.  The three windows on the one array qkv hold it at
    three parts of the full share (a half, a quarter, a quarter); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

end Cert.KernelIdeal.Hand

end
-- ==== Proof.Fold.lean ====
/-
  The buffers' contents between the program's parts.  The program is: five host operations (x reshaped to 4096
  rows, the two weight matrices converted, the two bias vectors reshaped to one row), the projection call, the
  attention call, and one reshape of the result back to 2 × 2048 rows.  Between two of these the core holds every
  unscoped buffer at contents named here: the launch contents, then the host operations' results over them, then
  the projection's output array at what its eight write-backs leave, then the attention call's output array at what
  its sixteen write-backs leave, then the last reshape's result.
-/
import proofs.«401896_j14491219657281_3_alg».proof.Proof.K1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's parts -/

/-- Core `c`'s buffers at launch. -/
abbrev W0 : Dev nD → Valuation τ sig (Elt F) := fun c b => m ((c : Dev nD), b)
/-- After the five host operations (the projection call's entry). -/
abbrev W1 : Dev nD → Valuation τ sig (Elt F) := fun c => StableHlo.after hostOps0 (W0 m c)
/-- The same read at the core's references. -/
abbrev V1 : Entry F := fun c b => W1 m c b
/-- After the projection call: its output array at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the attention call's entry). -/
abbrev V2 : Entry F := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention call: its output array at what the write-backs leave, every other buffer as entered. -/
def W3 (c : Dev nD) : Valuation τ sig (Elt F) :=
  Function.update (W2 m c) (Proc.devRef .tc main_v6) ((dat1 (V2 m) c).arrAt 5 cfg1.N)
/-- The same read at the core's references. -/
abbrev V3 : Entry F := fun c b => W3 m c b
theorem W3_out (c : Dev nD) : W3 m c (Proc.devRef .tc main_v6) = (dat1 (V2 m) c).arrAt 5 cfg1.N := by
  unfold W3; exact Function.update_self ..
theorem W3_of_ne (c : Dev nD) (b : Ref sig .tc) (hb : b ≠ main_v6) :
    W3 m c (Proc.devRef .tc b) = W2 m c (Proc.devRef .tc b) := by
  unfold W3; exact Function.update_of_ne (StableHlo.devRef_ne_of_ne hb) ..
/-- After the last reshape (the return). -/
abbrev W4 : Dev nD → Valuation τ sig (Elt F) := fun c => StableHlo.after hostOps2 (W3 m c)

end Cert.KernelIdeal.Hand

end
-- ==== Proof.K0Body.lean ====
/-
  The first pallas_call (qkv = x · W_in + b_in, one block of 512 rows per grid point): the body's triple on whole
  staging buffers, each input window's staging buffer at its block at every grid point, and the body obligation of
  the call's pipeline at the proof data of K0Data.
-/
import proofs.«401896_j14491219657281_3_alg».proof.Proof.K0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output buffer is covered by the body's one store -/

/-- The one store is to the whole 512×3072 rectangle, so every index of the output buffer lies in it. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

/-! ## The body's triple -/

set_option maxHeartbeats 1000000 in
/-- The body on whole staging buffers: the three inputs' at contents x0, x1, x2 and the output's at anything. It
    reads the three inputs whole, reads the output once (that value is dropped), and stores the payload (the product
    of the x block with W_in plus the broadcast bias row, rounded to bf16) over the whole output. The inputs are left
    as they were and the output holds out0_3 x0 x1 x2. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## Each input window's staging buffer holds its block at every point -/

variable (V : Entry F)

/-- Window 0 (the x block, rows 512·t … 512·t+511) is fetched at every point: its buffer holds that block. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Window 1 (all of W_in) is fetched at the first point only; its block is the same at every point and the body
    leaves it in place, so its buffer holds it at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Window 2 (all of b_in): as window 1. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point t: the pipeline's invariant, what the core owes, and the four windows'
    current staging buffers at their contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same with each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies at those blocks;
    the invariant and what the core owes do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point: its two products over the four windows written out. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.K1Body.lean ====
/-
  The second pallas_call's body obligation.  Each input window's staging buffer holds its block at every grid
  point.  The body on whole memrefs: the loop's eight trips each store one column band (columns 128·k … 128·k+127)
  of the scratch accumulator, the payload a function of the same band of the three input blocks; the eight bands
  tile the 256×1024 scratch, so after the loop the scratch reads as one function of the three blocks, whatever it
  held before; the tail multiplies it by the output weights, adds the bias row and stores the whole output block.
  The scratch is no window of the pipeline: it is taken out of the region invariant's scoped buffers for the body
  and put back, at some contents, after.
-/
import proofs.«401896_j14491219657281_3_alg».proof.Proof.K1Data
import proofs.«401896_j14491219657281_3_alg».proof.Proof.Gen.KernelIdeal.Loops

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The input windows' staging buffers hold their blocks -/

/- An input window's current staging buffer holds its block at every point, fetched there or not: where it is
   not fetched, its block index has not moved since the point before. -/
theorem before1_0 (V : Entry F) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (V : Entry F) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (V : Entry F) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (V : Entry F) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (V : Entry F) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The loop's trips as pieces -/

/-- Trip `k` stores ONE piece: its column band of the scratch, the payload of the same band of the three blocks
    as read through their memrefs. -/
theorem tripL_eq (𝒱 : Variants) (c : Dev nD) (bd : Option 𝒱.V) (i : grid1.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole)
    (X2 : BufTy.Contents (Elt F) arg2.view.ty) (X3 : BufTy.Contents (Elt F) arg3.view.ty) (X4 : BufTy.Contents (Elt F) arg4.view.ty)
    (k : Fin k1_t1_loop.trips) :
    tripL_k1_t1 (F := F) 𝒱 c bd i arg2 harg2 arg3 harg3 arg4 harg4 arg5 harg5 arg6 harg6 arg7 harg7 arg8 harg8 X2 X3 X4 k
      = [tripPiece (arg2.view.read (Elt F) X2) (arg3.view.read (Elt F) X3) (arg4.view.read (Elt F) X4) k] := by
  unfold tripL_k1_t1
  unfold trip_k1_t1
  sl_unfold_run_names
  rfl

/-- The loop makes eight trips. -/
theorem trips_eq : Scf.trips k1_t1_loop.lb k1_t1_loop.ub k1_t1_loop.st = 8 := by decide

/-- After the last trip the loop's pieces are the eight trips' pieces, last first. -/
theorem pb_eq (𝒱 : Variants) (c : Dev nD) (bd : Option 𝒱.V) (i : grid1.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole)
    (X2 : BufTy.Contents (Elt F) arg2.view.ty) (X3 : BufTy.Contents (Elt F) arg3.view.ty) (X4 : BufTy.Contents (Elt F) arg4.view.ty) :
    pb_k1_t1 (F := F) 𝒱 c bd i arg2 harg2 arg3 harg3 arg4 harg4 arg5 harg5 arg6 harg6 arg7 harg7 arg8 harg8 X2 X3 X4 (Scf.trips k1_t1_loop.lb k1_t1_loop.ub k1_t1_loop.st)
      = tripPieces (arg2.view.read (Elt F) X2) (arg3.view.read (Elt F) X3) (arg4.view.read (Elt F) X4) := by
  rw [trips_eq]
  have e0 : pb_k1_t1 (F := F) 𝒱 c bd i arg2 harg2 arg3 harg3 arg4 harg4 arg5 harg5 arg6 harg6 arg7 harg7 arg8 harg8 X2 X3 X4 0 = [] := rfl
  have e1 := pb_k1_t1_succ (F := F) 𝒱 c bd i arg2 harg2 arg3 harg3 arg4 harg4 arg5 harg5 arg6 harg6 arg7 harg7 arg8 harg8 X2 X3 X4 (trip 0)
  have e2 := pb_k1_t1_succ (F := F) 𝒱 c bd i arg2 harg2 arg3 harg3 arg4 harg4 arg5 harg5 arg6 harg6 arg7 harg7 arg8 harg8 X2 X3 X4 (trip 1)
  have e3 := pb_k1_t1_succ (F := F) 𝒱 c bd i arg2 harg2 arg3 harg3 arg4 harg4 arg5 harg5 arg6 harg6 arg7 harg7 arg8 harg8 X2 X3 X4 (trip 2)
  have e4 := pb_k1_t1_succ (F := F) 𝒱 c bd i arg2 harg2 arg3 harg3 arg4 harg4 arg5 harg5 arg6 harg6 arg7 harg7 arg8 harg8 X2 X3 X4 (trip 3)
  have e5 := pb_k1_t1_succ (F := F) 𝒱 c bd i arg2 harg2 arg3 harg3 arg4 harg4 arg5 harg5 arg6 harg6 arg7 harg7 arg8 harg8 X2 X3 X4 (trip 4)
  have e6 := pb_k1_t1_succ (F := F) 𝒱 c bd i arg2 harg2 arg3 harg3 arg4 harg4 arg5 harg5 arg6 harg6 arg7 harg7 arg8 harg8 X2 X3 X4 (trip 5)
  have e7 := pb_k1_t1_succ (F := F) 𝒱 c bd i arg2 harg2 arg3 harg3 arg4 harg4 arg5 harg5 arg6 harg6 arg7 harg7 arg8 harg8 X2 X3 X4 (trip 6)
  have e8 := pb_k1_t1_succ (F := F) 𝒱 c bd i arg2 harg2 arg3 harg3 arg4 harg4 arg5 harg5 arg6 harg6 arg7 harg7 arg8 harg8 X2 X3 X4 (trip 7)
  simp only [trip, tripL_eq] at e1 e2 e3 e4 e5 e6 e7 e8
  rw [e0] at e1; rw [e1] at e2; rw [e2] at e3; rw [e3] at e4; rw [e4] at e5; rw [e5] at e6; rw [e6] at e7; rw [e7] at e8
  exact e8

/-! ## The eight bands tile the scratch -/

/-- The eight column bands of width 128 cover the 256×1024 scratch, whatever the payloads. -/
theorem cover_scr (x0 : Vec F S256x1024 .bf16) (x1 x2 : Vec F S2048x1024 .bf16) (y : S256x1024.Idx) :
    ∃ pc ∈ tripPieces x0 x1 x2, y ∈ pc.1.set :=
  View.cover_of_tiled (tripPieces x0 x1 x2) S256x128.size (by rfl) y

/-- What any view of the scratch reads after the eight stores, over any earlier contents. -/
theorem read_scr {κ : Kind} {sp : Space} (v : View sig κ sp S256x1024 .f32) (f : v.ty.Contents (Elt F))
    (x0 : Vec F S256x1024 .bf16) (x1 x2 : Vec F S2048x1024 .bf16) :
    v.read (Elt F) (v.writes (Elt F) f (tripPieces x0 x1 x2)) = scr x0 x1 x2 :=
  View.read_writes_eq_canon _ _ _ (cover_scr x0 x1 x2)

/-- The tail's one store covers the output block. -/
theorem cover1_5 (p0 : Vec F S256x1024 .f32) (y : S256x1024.Idx) :
    ∃ pc ∈ ([⟨r1_s, p0⟩] : List (View.Piece (Elt F) S256x1024 .f32)), y ∈ pc.1.set :=
  View.cover_of_tiled [⟨r1_s, p0⟩] S256x1024.size (by rfl) y

/-! ## The body's triple -/

set_option maxHeartbeats 4000000 in
/-- The kernel body on whole memrefs, the five inputs' at read contents `x0 … x4`, the output's and the scratch at
    anything, runs to the continuation holding the inputs' as they were, the output's at `out1_5` of the inputs'
    and the scratch at some contents.  The loop is run by its invariant: after it the scratch holds the trips'
    pieces written over what it held, which reads as `scr` because the eight bands tile it. -/
theorem sound_kernel1 (c : Dev nD) (E : Set ℕ) (i : grid1.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .bf16) (x1 x2 : Vec F S2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ (∃ d, owns (c : Thread nD τ) arg8 fullShare d)) -∗ K ⟨⟩))
      ⊢ wp frame (wpE (defs₀ (F := F)) Variants.none c none) E (cc1__attn_outproj_kernel i arg2 harg2 arg3 harg3 arg4 harg4 arg5 harg5 arg6 harg6 arg7 harg7 arg8 harg8) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [pb_eq]
    refine (View.read_writes_eq_canon _ _ _ (cover1_5 _)).trans ?_
    have h8 : View.readAt (Elt F) arg8.view r1_s.toLoadRect
        (arg8.view.writes (Elt F) f8 (tripPieces (arg2.view.read (Elt F) f0) (arg3.view.read (Elt F) f1) (arg4.view.read (Elt F) f2)))
          = View.ld (scr (arg2.view.read (Elt F) f0) (arg3.view.read (Elt F) f1) (arg4.view.read (Elt F) f2)) r1_s := by
      rw [← read_scr arg8.view f8]; rfl
    rw [h8]; rfl
  · iexists _, _; isplitr
    swap; · iexact H8
    ipureintro; rfl

/-! ## The body obligation, at a generic point -/

/-- The scratch among the invariant's scoped buffers, at some contents, is its whole memref owned at some contents. -/
theorem scr_owns (c : Dev nD) :
    (iprop(∃ f : Buf (Elt F) ((c : Thread nD τ).loc cc1_scratch0), ((c : Thread nD τ).loc cc1_scratch0) ↦{fullShare} f) : sProp 𝕄)
      = iprop(∃ d, owns (c : Thread nD τ) (Memref.whole cc1_scratch0) fullShare d) := by
  simp only [owns_whole]

/-- What the body is called with at point `t` (the windows one by one), -/
def bodyPre1 (V : Entry F) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (V : Entry F) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' memrefs hold their blocks (`before1_W`) and the scratch comes out of the
    invariant's scoped buffers, so `sound_kernel1` applies; the scratch goes back at what the body leaves in it;
    the other scoped buffers, the generator register and the core's `owes` pass through unread. -/
theorem sound_body1 (V : Entry F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq, scr_owns]
  iintro ⟨⟨⟨Hs0, Hs1, Hs2, Hs3, Hs4, Hs5, Hscr⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hscr]; · iexact Hscr
  iintro ⟨H0, H1, H2, H3, H4, H5, Hscr⟩
  isplitl [Hs0 Hs1 Hs2 Hs3 Hs4 Hs5 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hscr
    · iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (V : Entry F) (c : Dev nD) :
    BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program run from the launch memory to the return: the five host operations, the projection call, the
  attention call and the last reshape, each entered from what the part before it left (the contents of Fold.lean).
  The run ends with every unscoped buffer at the last of those contents, which is what the frame claims and the
  value claim are read from.
  The attention call reads ONE array, the projection's result, through three windows: at its entry that array's
  full share is dealt to the three windows (a half and two quarters) and at its exit put together again.
-/
import proofs.«401896_j14491219657281_3_alg».proof.Proof.Fold
import proofs.«401896_j14491219657281_3_alg».proof.Proof.K0Body
import proofs.«401896_j14491219657281_3_alg».proof.Proof.K1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pallas_call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every part: the core's generator register at some state, and nothing owed. -/
abbrev R (c : Dev nD) : sProp 𝕄 := iprop((∃ r, prngReg c r) ∗ ∃ W, owes (c : Thread nD τ) (0 : CellTallies nD τ sig Unit) W)
/-- A stretch of host operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The projection call as a segment -/

set_option backward.isDefEq.respectTransparency.types false in
/-- Entered from every unscoped buffer at `W1`, left at `W2`: its four arrays are distinct buffers, split out of the
    unscoped buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call's one shared array: the shares dealt and put together -/

/-- The pipeline's `arrays` of the attention call, window by window: the three windows on the projection's result at
    their parts of the share, the weights, the bias and the output array at the full share. -/
theorem arrays1_eq (V : Entry F) (c : Dev nD)
    (G : (w : Fin cfg1.W) → Buf (Elt F) ((cfg1.win w).arr.view.loc (c : Thread nD τ))) :
    ((dat1 V c).arrays G : sProp 𝕄)
      = iprop((((c : Thread nD τ).loc main_v5) ↦{fullShare.left} G 0) ∗ (((c : Thread nD τ).loc main_v5) ↦{fullShare.right.left} G 1)
          ∗ (((c : Thread nD τ).loc main_v5) ↦{fullShare.right.right} G 2) ∗ (((c : Thread nD τ).loc main_v2) ↦{fullShare} G 3)
          ∗ (((c : Thread nD τ).loc main_v4) ↦{fullShare} G 4) ∗ (((c : Thread nD τ).loc main_v6) ↦{fullShare} G 5)) := by
  unfold Dat.arrays
  rw [bigSep_W1, (arr_whole1 0).set_eq_univ, (arr_whole1 3).set_eq_univ, (arr_whole1 4).set_eq_univ, (arr_whole1 5).set_eq_univ]
  rfl

/-- The distinct buffers behind the attention call's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v2) ↦{fullShare} V main_v2)
          ∗ (((c : Thread nD τ).loc main_v4) ↦{fullShare} V main_v4) ∗ (((c : Thread nD τ).loc main_v6) ↦{fullShare} V main_v6)) := by
  unfold Pipeline.arrBufs
  exact bigSep_eq_bigSepL_of_eq [main_v5, main_v2, main_v4, main_v6] (by decide) (by decide) _

/-- ENTRY: the core's unscoped buffers at `V` are the attention call's arrays at their entry contents — the
    projection's result held three times, at a half and two quarters of its share — and the rest. -/
theorem entry1 (V : Entry F) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [show (unscopedBufs (Ix := Unit) (Name := ℕ) (U := UR sig nD τ) (Lvl := ℕ) c (V c) : sProp 𝕄)
      = iprop(Pipeline.arrBufs spec1 c (V c) ∗ Pipeline.unscopedRest spec1 c (V c))
    from Pipeline.unscopedBufs_split₀ cfgs (1 : Fin 2) winFacts₀1.arr_unscoped c (V c), arrBufs1_eq, arrays1_eq]
  iintro ⟨⟨H5, H2, H4, H6⟩, Hrest⟩
  ihave H5' := (pointsTo_share (PosShare.mem_left_op_right fullShare)).1 $$ H5
  icases H5' with ⟨H5l, H5r⟩
  ihave H5r' := (pointsTo_share (PosShare.mem_left_op_right fullShare.right)).1 $$ H5r
  icases H5r' with ⟨H5rl, H5rr⟩
  isplitr [Hrest]
  · isplitl [H5l]; · iexact H5l
    isplitl [H5rl]; · iexact H5rl
    isplitl [H5rr]; · iexact H5rr
    isplitl [H2]; · iexact H2
    isplitl [H4]; · iexact H4
    iexact H6
  · iexact Hrest

/-- EXIT: the attention call's arrays at their final contents (the inputs as entered, the output array at what the
    write-backs leave) and the rest are the core's unscoped buffers at any contents `V'` that have the output array so
    and agree with `V` elsewhere. -/
theorem exit1 (V V' : Entry F) (c : Dev nD) (hout : V' c main_v6 = (dat1 V c).arrAt 5 cfg1.N)
    (hrest : ∀ b, b ≠ main_v6 → V' c b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c (V' c) : sProp 𝕄) := by
  have hR : (Pipeline.unscopedRest (Ix := Unit) (Name := ℕ) (U := UR sig nD τ) (Lvl := ℕ) spec1 c (V c) : sProp 𝕄)
      = Pipeline.unscopedRest spec1 c (V' c) := by
    unfold Pipeline.unscopedRest
    exact bigSep_congr fun b hb => by
      rw [hrest b fun e => (Finset.mem_sdiff.mp hb).2 (e ▸ (by decide : main_v6 ∈ Finset.univ.image (Pipeline.arrRef spec1)))]
  rw [show (unscopedBufs (Ix := Unit) (Name := ℕ) (U := UR sig nD τ) (Lvl := ℕ) c (V' c) : sProp 𝕄)
      = iprop(Pipeline.arrBufs spec1 c (V' c) ∗ Pipeline.unscopedRest spec1 c (V' c))
    from Pipeline.unscopedBufs_split₀ cfgs (1 : Fin 2) winFacts₀1.arr_unscoped c (V' c), arrBufs1_eq, arrays1_eq, hR,
    (dat1 V c).arrAt_in 0 rfl, (dat1 V c).arrAt_in 1 rfl, (dat1 V c).arrAt_in 2 rfl, (dat1 V c).arrAt_in 3 rfl,
    (dat1 V c).arrAt_in 4 rfl, hrest main_v5 (by decide), hrest main_v2 (by decide), hrest main_v4 (by decide), hout]
  iintro ⟨⟨H5l, H5rl, H5rr, H2, H4, H6⟩, Hrest⟩
  ihave H5r := (pointsTo_share (PosShare.mem_left_op_right fullShare.right)).2 $$ [H5rl H5rr]
  · isplitl [H5rl]; · iexact H5rl
    iexact H5rr
  ihave H5 := (pointsTo_share (PosShare.mem_left_op_right fullShare)).2 $$ [H5l H5r]
  · isplitl [H5l]; · iexact H5l
    iexact H5r
  isplitr [Hrest]
  · isplitl [H5]; · iexact H5
    isplitl [H2]; · iexact H2
    isplitl [H4]; · iexact H4
    iexact H6
  · iexact Hrest

/-! ## The attention call as a segment -/

set_option backward.isDefEq.respectTransparency.types false in
/-- Entered from every unscoped buffer at `W2`, left at `W3`: the projection's result dealt to its three windows at
    entry (`entry1`) and put together at exit (`exit1`). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m) (V3 m) c (W3_out m c) (fun b hb => W3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as its four parts, and the launch -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The four parts in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- The program IS the run of its parts. -/
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds each unscoped buffer of each core at `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show iprop(StableHlo.held (c : Thread nD τ) (Pipeline.ucRefs τ sig) (W4 m c) ∗ R c)
          ⊢ (iprop(Tₙ m c ∗ ∃ W, owes (c : Thread nD τ) (0 : CellTallies nD τ sig Unit) W) : sProp 𝕄) from by
        iintro ⟨Hh, Hp, HO⟩
        isplitr [HO]
        · isplitl [Hh]; · iexact Hh
          iexact Hp
        · iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand
end
-- ==== Proof.HostReads.lean ====
/-
  What the host operations and the two calls' bookkeeping put in each buffer, read at coordinates.  The five
  arguments are never written, so at the return they hold what they held at launch.  Before the projection call
  x has been reshaped to 4096 rows (row r is row r mod 2048 of batch r / 2048), the input weights converted (the
  identity on exact values) and the input bias reshaped to one row; the projection call leaves the converted output
  weights and the reshaped output bias alone and puts its write-backs' result in qkv; the last reshape reads the
  attention call's result, row 2048·b + s, at (b, s).
-/
import proofs.«401896_j14491219657281_3_alg».proof.Proof.Fold
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)

section Generic

variable {F : FTy → Type} [FloatOps F]
variable (m : (ℓ : Loc nD τ sig) → Buf (Elt F) ℓ)

namespace HR

/-- The first stretch of host operations writes no buffer other than its five results. -/
theorem W1_of_not_written (c : Dev nD) (b : Ref sig .tc)
    (h0 : b ≠ main_v0) (h1 : b ≠ main_v1) (h2 : b ≠ main_v2) (h3 : b ≠ main_v3) (h4 : b ≠ main_v4) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-- The last reshape writes no buffer other than its result. -/
theorem W4_of_not_written (c : Dev nD) (b : Ref sig .tc) (h : b ≠ main_v7) :
    W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- A buffer that is no result of a host operation and no array of either call holds at the return what it held at
    launch. -/
theorem W4_of_untouched (c : Dev nD) (b : Ref sig .tc)
    (h0 : b ≠ main_v0) (h1 : b ≠ main_v1) (h2 : b ≠ main_v2) (h3 : b ≠ main_v3) (h4 : b ≠ main_v4)
    (h5 : ∀ w, Pipeline.arrRef spec0 w ≠ b) (h6 : b ≠ main_v6) (h7 : b ≠ main_v7) :
    W4 m c (Proc.devRef .tc b) = m ((c : Thread nD τ).loc b) :=
  calc W4 m c (Proc.devRef .tc b)
    _ = W3 m c (Proc.devRef .tc b) := W4_of_not_written m c b h7
    _ = W2 m c (Proc.devRef .tc b) := W3_of_ne m c b h6
    _ = W1 m c (Proc.devRef .tc b) := W2_of_ne m c b h5
    _ = W0 m c (Proc.devRef .tc b) := W1_of_not_written m c b h0 h1 h2 h3 h4
    _ = m ((c : Thread nD τ).loc b) := rfl

end HR

theorem W4_main_arg0 (c : Dev nD) : W4 m c (Proc.devRef .tc main_arg0) = m ((c : Thread nD τ).loc main_arg0) :=
  HR.W4_of_untouched m c main_arg0 (by decide) (by decide) (by decide) (by decide) (by decide) (by decide) (by decide) (by decide)
theorem W4_main_arg1 (c : Dev nD) : W4 m c (Proc.devRef .tc main_arg1) = m ((c : Thread nD τ).loc main_arg1) :=
  HR.W4_of_untouched m c main_arg1 (by decide) (by decide) (by decide) (by decide) (by decide) (by decide) (by decide) (by decide)
theorem W4_main_arg2 (c : Dev nD) : W4 m c (Proc.devRef .tc main_arg2) = m ((c : Thread nD τ).loc main_arg2) :=
  HR.W4_of_untouched m c main_arg2 (by decide) (by decide) (by decide) (by decide) (by decide) (by decide) (by decide) (by decide)
theorem W4_main_arg3 (c : Dev nD) : W4 m c (Proc.devRef .tc main_arg3) = m ((c : Thread nD τ).loc main_arg3) :=
  HR.W4_of_untouched m c main_arg3 (by decide) (by decide) (by decide) (by decide) (by decide) (by decide) (by decide) (by decide)
theorem W4_main_arg4 (c : Dev nD) : W4 m c (Proc.devRef .tc main_arg4) = m ((c : Thread nD τ).loc main_arg4) :=
  HR.W4_of_untouched m c main_arg4 (by decide) (by decide) (by decide) (by decide) (by decide) (by decide) (by decide) (by decide)

/-- The projection's result as the attention call finds it: what the projection's write-backs leave. -/
theorem V2_qkv (c : Dev nD) : V2 m c main_v5 = (dat0 (V1 m) c).arrAt 3 cfg0.N := W2_arr m c 3

end Generic

section AtIdeal

variable (m : (ℓ : Loc nD τ sig) → Buf (Elt Ideal) ℓ)

namespace HR

/-- A 2 × 2048 × 1024 array reshaped to 4096 rows reads, at row r, row r mod 2048 of batch r / 2048. -/
theorem reshape_rows (x : S2x2048x1024.Idx → EReal) (r : Fin 4096) (d : Fin 1024) :
    shapeCast S4096x1024 x shapeCasts_S2x2048x1024_S4096x1024 (ix2 r d)
      = x (ix3 (⟨r.val / 2048, by omega⟩ : Fin 2) (⟨r.val % 2048, by omega⟩ : Fin 2048) d) := by
  refine shapeCast_apply x _ _ _ ?_
  rw [Shape.rowMajor_val_two, Shape.rowMajor_val_three]
  show ((r.val / 2048) * 2048 + r.val % 2048) * 1024 + d.val = r.val * 1024 + d.val
  omega

/-- A 4096-row array reshaped to 2 × 2048 × 1024 reads, at (b, s), row 2048·b + s. -/
theorem reshape_batches (x : S4096x1024.Idx → EReal) (b : Fin 2) (s : Fin 2048) (e : Fin 1024) :
    shapeCast S2x2048x1024 x shapeCasts_S4096x1024_S2x2048x1024 (ix3 b s e)
      = x (ix2 (⟨b.val * 2048 + s.val, by omega⟩ : Fin 4096) e) := by
  refine shapeCast_apply x _ _ _ ?_
  rw [Shape.rowMajor_val_two, Shape.rowMajor_val_three]
  show (b.val * 2048 + s.val) * 1024 + e.val = (b.val * 2048 + s.val) * 1024 + e.val
  rfl

end HR

theorem V1_x (c : Dev nD) (r : Fin 4096) (d : Fin 1024) :
    (V1 m c main_v0 : S4096x1024.Idx → EReal) (ix2 r d)
      = (m ((c : Thread nD τ).loc main_arg0) : S2x2048x1024.Idx → EReal)
          (ix3 (⟨r.val / 2048, by omega⟩ : Fin 2) (⟨r.val % 2048, by omega⟩ : Fin 2048) d) := by
  have e : (V1 m c main_v0 : S4096x1024.Idx → EReal)
      = shapeCast S4096x1024 (m ((c : Thread nD τ).loc main_arg0) : S2x2048x1024.Idx → EReal) shapeCasts_S2x2048x1024_S4096x1024 := by
    dsimp only [V1, W1, hostOps0]; after_results; rfl
  rw [e]
  exact HR.reshape_rows _ r d

theorem V1_w (c : Dev nD) : (V1 m c main_v1 : S1024x3072.Idx → EReal) = m ((c : Thread nD τ).loc main_arg1) := by
  have e : (V1 m c main_v1 : S1024x3072.Idx → EReal)
      = (truncf .bf16 (m ((c : Thread nD τ).loc main_arg1) : FVec Ideal S1024x3072 .f32) bitsLt_bf16_f32 : FVec Ideal S1024x3072 .bf16) := by
    dsimp only [V1, W1, hostOps0]; after_results
  rw [e]
  rfl

theorem V1_b (c : Dev nD) (e : Fin 3072) :
    (V1 m c main_v3 : S1x3072.Idx → EReal) (ix2 (0 : Fin 1) e)
      = (m ((c : Thread nD τ).loc main_arg2) : S3072.Idx → EReal) (ix1 e) := by
  have h : (V1 m c main_v3 : S1x3072.Idx → EReal)
      = shapeCast S1x3072 (m ((c : Thread nD τ).loc main_arg2) : S3072.Idx → EReal) shapeCasts_S3072_S1x3072 := by
    dsimp only [V1, W1, hostOps0]; after_results; rfl
  rw [h]
  exact shapeCast_a_1a_apply _ _ (0 : Fin 1) e

theorem V2_wo (c : Dev nD) : (V2 m c main_v2 : S1024x1024.Idx → EReal) = m ((c : Thread nD τ).loc main_arg3) := by
  have h2 : V2 m c main_v2 = V1 m c main_v2 := W2_of_ne m c main_v2 (by decide)
  have e : (V1 m c main_v2 : S1024x1024.Idx → EReal)
      = (truncf .bf16 (m ((c : Thread nD τ).loc main_arg3) : FVec Ideal S1024x1024 .f32) bitsLt_bf16_f32 : FVec Ideal S1024x1024 .bf16) := by
    dsimp only [V1, W1, hostOps0]; after_results
  rw [h2, e]
  rfl

theorem V2_bo (c : Dev nD) (e : Fin 1024) :
    (V2 m c main_v4 : S1x1024.Idx → EReal) (ix2 (0 : Fin 1) e)
      = (m ((c : Thread nD τ).loc main_arg4) : S1024.Idx → EReal) (ix1 e) := by
  have h2 : V2 m c main_v4 = V1 m c main_v4 := W2_of_ne m c main_v4 (by decide)
  have h : (V1 m c main_v4 : S1x1024.Idx → EReal)
      = shapeCast S1x1024 (m ((c : Thread nD τ).loc main_arg4) : S1024.Idx → EReal) shapeCasts_S1024_S1x1024 := by
    dsimp only [V1, W1, hostOps0]; after_results; rfl
  rw [h2, h]
  exact shapeCast_a_1a_apply _ _ (0 : Fin 1) e

theorem W4_out (c : Dev nD) (b : Fin 2) (s : Fin 2048) (e : Fin 1024) :
    (W4 m c (Proc.devRef .tc main_v7) : S2x2048x1024.Idx → EReal) (ix3 b s e)
      = ((dat1 (V2 m) c).arrAt 5 cfg1.N : S4096x1024.Idx → EReal)
          (ix2 (⟨b.val * 2048 + s.val, by omega⟩ : Fin 4096) e) := by
  have h : (W4 m c (Proc.devRef .tc main_v7) : S2x2048x1024.Idx → EReal)
      = shapeCast S2x2048x1024 (W3 m c (Proc.devRef .tc main_v6) : S4096x1024.Idx → EReal) shapeCasts_S4096x1024_S2x2048x1024 := by
    dsimp only [W4, hostOps2]; after_results; rfl
  rw [h, HR.reshape_batches, W3_out]

end AtIdeal

end Cert.KernelIdeal.Hand

end
-- ==== Proof.Spec.lean ====
/-
  The mathematics both programs compute, over the extended reals, written once over plain coordinates.
  A token row r (one of 2 · 2048) is projected to 3072 columns,  qkv r e = Σ_d x r d · W_in d e + b_in e:
  columns 0 … 1023 are the queries, 1024 … 2047 the keys, 2048 … 3071 the values, and within each third head h
  (of 16) owns the 64 columns 64·h … 64·h+63.  For a query row r and a head h the scores run over the 2048 rows k of
  r's own batch; the row of scores is turned into weights by the softmax (subtract the row's maximum, exponentiate,
  divide by the row's sum) and the weights average the batch's value rows.  The 16 heads' 64 outputs side by side are
  a row of 1024 numbers, which the output projection sends to  Σ_c att r c · W_out c e + b_out e.
  The two programs differ in ONE place, the scores: the kernel multiplies each query entry by 1/8 before the
  inner product, the reference divides the inner product by √64.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A rank-2 array read by its two coordinates. -/
def fn2 {m n : ℕ} (a : (⟨2, ![m, n]⟩ : Shape).Idx → EReal) : Fin m → Fin n → EReal := fun p q => a (ix2 p q)
/-- A function of two coordinates as a rank-2 array. -/
def arr2 {m n : ℕ} (f : Fin m → Fin n → EReal) : (⟨2, ![m, n]⟩ : Shape).Idx → EReal :=
  fun i => f ⟨(i 0).val, (i 0).isLt⟩ ⟨(i 1).val, (i 1).isLt⟩

/-- The factor the kernel scales each query entry by: the f32 word of 0.125. -/
def scaleK : EReal := Ideal.ofBits .f32 0x3E000000#32
/-- The reference's divisor: the square root of the f32 word of 64. -/
def divisorR : EReal := Ideal.sqrt (Ideal.ofBits .f32 0x42800000#32)
/-- The value both row maxima start from: the f32 word of −∞. -/
def negInf : EReal := Ideal.ofBits .f32 0xFF800000#32

/-! ## One row of scores against one column of values -/

/-- The row's maximum. -/
def rowMax (s : Fin 2048 → EReal) : EReal := (Finset.univ : Finset (Fin 2048)).fold max negInf s
/-- The shifted exponentials. -/
def rowExp (s : Fin 2048 → EReal) (k : Fin 2048) : EReal := Ideal.exp (s k - rowMax s)
/-- Their sum. -/
def rowSum (s : Fin 2048 → EReal) : EReal := ∑ k : Fin 2048, rowExp s k
/-- The softmax weights. -/
def rowProb (s : Fin 2048 → EReal) (k : Fin 2048) : EReal := Ideal.div (rowExp s k) (rowSum s)
/-- The weighted average of a column of values. -/
def headOut (s v : Fin 2048 → EReal) : EReal := ∑ k : Fin 2048, rowProb s k * v k

/-! ## The projection -/

/-- qkv r e = Σ_d x r d · W d e + b e. -/
def qkvE (x : Fin 4096 → Fin 1024 → EReal) (W : Fin 1024 → Fin 3072 → EReal) (b : Fin 3072 → EReal)
    (r : Fin 4096) (e : Fin 3072) : EReal :=
  (∑ d : Fin 1024, x r d * W d e) + b e

/-! ## Attention over the projected array `Q` (4096 rows, 3072 columns) -/

/-- Row k of the batch that row r belongs to. -/
def batchRow (r : Fin 4096) (k : Fin 2048) : Fin 4096 := ⟨(r.val / 2048) * 2048 + k.val, by omega⟩
/-- Head h's d-th query, key and value column. -/
def qCol (h : Fin 16) (d : Fin 64) : Fin 3072 := ⟨h.val * 64 + d.val, by omega⟩
def kCol (h : Fin 16) (d : Fin 64) : Fin 3072 := ⟨1024 + h.val * 64 + d.val, by omega⟩
def vCol (h : Fin 16) (d : Fin 64) : Fin 3072 := ⟨2048 + h.val * 64 + d.val, by omega⟩

/-- The kernel's scores: each query entry scaled, then the inner product with the key row. -/
def scoreK (Q : Fin 4096 → Fin 3072 → EReal) (r : Fin 4096) (h : Fin 16) (k : Fin 2048) : EReal :=
  ∑ d : Fin 64, (Q r (qCol h d) * scaleK) * Q (batchRow r k) (kCol h d)
/-- The reference's scores: the inner product, then the division. -/
def scoreR (Q : Fin 4096 → Fin 3072 → EReal) (r : Fin 4096) (h : Fin 16) (k : Fin 2048) : EReal :=
  Ideal.div (∑ d : Fin 64, Q r (qCol h d) * Q (batchRow r k) (kCol h d)) divisorR

/-- Head h's d-th attention output for row r, over scores `sc`. -/
def attE (sc : Fin 4096 → Fin 16 → Fin 2048 → EReal) (Q : Fin 4096 → Fin 3072 → EReal)
    (r : Fin 4096) (h : Fin 16) (d : Fin 64) : EReal :=
  headOut (sc r h) (fun k => Q (batchRow r k) (vCol h d))

/-- Column c of the attention row: head c / 64, entry c % 64. -/
def attRow (sc : Fin 4096 → Fin 16 → Fin 2048 → EReal) (Q : Fin 4096 → Fin 3072 → EReal)
    (r : Fin 4096) (c : Fin 1024) : EReal :=
  attE sc Q r ⟨c.val / 64, by omega⟩ ⟨c.val % 64, by omega⟩

/-- The output projection of the attention row. -/
def outE (sc : Fin 4096 → Fin 16 → Fin 2048 → EReal) (Q : Fin 4096 → Fin 3072 → EReal)
    (Wo : Fin 1024 → Fin 1024 → EReal) (bo : Fin 1024 → EReal) (r : Fin 4096) (e : Fin 1024) : EReal :=
  (∑ c : Fin 1024, attRow sc Q r c * Wo c e) + bo e

end Cert.Spec

end
-- ==== Proof.BlockSpec.lean ====
/-
  The same mathematics one staging block at a time: what a grid point of either call computes from the blocks it
  is handed, over plain coordinates.  A block of the projection is 512 token rows; a block of the attention call is
  256 query rows against the 2048 key rows and 2048 value rows of their batch, all 1024 columns wide, so that column
  c of the query block, of the key block and of the value block all belong to head c / 64.
-/
import proofs.«401896_j14491219657281_3_alg».proof.Proof.Spec

noncomputable section

open scoped BigOperators

namespace Cert.Spec

open Idealize.ShloMosaic Idealize.ShloMosaic.ValueIdx

/-- One block of the projection: 512 rows of x against all of W_in and b_in. -/
def blkQkv (x0 : Fin 512 → Fin 1024 → EReal) (x1 : Fin 1024 → Fin 3072 → EReal) (x2 : Fin 3072 → EReal)
    (p : Fin 512) (e : Fin 3072) : EReal :=
  (∑ d : Fin 1024, x0 p d * x1 d e) + x2 e

/-- The d-th column of the head that column c belongs to. -/
def hcol (c : Fin 1024) (d : Fin 64) : Fin 1024 := ⟨(c.val / 64) * 64 + d.val, by omega⟩

/-- One block's attention entry: query row p against the block's 2048 key rows (scores scaled as the kernel scales
    them) and value rows, at column c. -/
def blkAtt (x0 : Fin 256 → Fin 1024 → EReal) (x1 x2 : Fin 2048 → Fin 1024 → EReal) (p : Fin 256) (c : Fin 1024) : EReal :=
  headOut (fun kk => ∑ d : Fin 64, (x0 p (hcol c d) * scaleK) * x1 kk (hcol c d)) (fun kk => x2 kk c)

/-- One block of the attention call's result: the attention row times the output weights plus the bias. -/
def blkOut (x0 : Fin 256 → Fin 1024 → EReal) (x1 x2 : Fin 2048 → Fin 1024 → EReal)
    (x3 : Fin 1024 → Fin 1024 → EReal) (x4 : Fin 1024 → EReal) (p : Fin 256) (e : Fin 1024) : EReal :=
  (∑ c : Fin 1024, blkAtt x0 x1 x2 p c * x3 c e) + x4 e

end Cert.Spec

end
-- ==== Proof.K0Value.lean ====
/-
  The value of the first call, the projection  qkv = x · W_in + b_in.
  A grid point t holds rows 512·t … 512·t+511 of x, all of W_in and all of b_in; its one store writes, at row p and
  column e of the staging block, the inner product of row p of the x block with column e of W_in plus b_in's entry e.
  Row r of the result array is written by the point r / 512, at row r % 512 of that point's block, and the eight
  blocks tile the 4096 rows, so the array after the call is  Σ_d x r d · W_in d e + b_in e  everywhere.
-/
import proofs.«401896_j14491219657281_3_alg».proof.Proof.K0Data
import proofs.«401896_j14491219657281_3_alg».proof.Proof.BlockSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)

namespace K0V

/-! ## The matrix product at an index -/

/-- The product's left operand is read at the result's row … -/
theorem lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- … and at the summation coordinate as its column; -/
theorem lhs_col (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- the right operand at the summation coordinate as its row … -/
theorem rhs_row (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- … and at the result's column. -/
theorem rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into a zero accumulator, at row p and column e: the inner product of the left operand's row p with
    the right operand's column e. -/
theorem matmul_at (l : FVec Ideal S512x1024 .bf16) (r : FVec Ideal S1024x3072 .bf16) (p : Fin 512) (e : Fin 3072) :
    matmul dot_S512x1024_S1024x3072_S512x3072_1_0_0_1_n_n none l r (constant (F := Ideal) S512x3072 .f32 0x00000000#32) (ix2 p e)
      = ∑ d : Fin 1024, l (ix2 p d) * r (ix2 d e) := by
  refine (Ideal.matmul_constant_zero_apply dot_S512x1024_S1024x3072_S512x3072_1_0_0_1_n_n none l r (ix2 p e)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p e) ((contrEquiv1 dot_S512x1024_S1024x3072_S512x3072_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x3072_S512x3072_1_0_0_1_n_n.rhsIdx (ix2 p e) ((contrEquiv1 dot_S512x1024_S1024x3072_S512x3072_1_0_0_1_n_n 1024 rfl rfl).symm k) = ix2 k e := funext fun a => Fin.ext (by
    match a with
    | ⟨0, _⟩ => exact (rhs_row _ _).trans hk
    | ⟨1, _⟩ => exact rhs_col _ _)
  rw [el, er]

/-! ## The bias row spread over the block's rows -/

/-- The broadcast of the one bias row reads, at any row, the bias entry of the column. -/
theorem bias_at (b : FVec Ideal S1x3072 .f32) (p : Fin 512) (e : Fin 3072) :
    broadcastTo S512x3072 b broadcasts_S1x3072_S512x3072 (ix2 p e) = b (ix2 0 e) := by
  refine broadcastTo_apply b broadcasts_S1x3072_S512x3072 (ix2 p e) (ix2 0 e) (fun a => ?_)
  match a with
  | ⟨0, _⟩ => show (0 : Nat) = if (1 : Nat) = 1 then 0 else p.val; rw [if_pos rfl]
  | ⟨1, _⟩ => show e.val = if (3072 : Nat) = 1 then 0 else e.val; rw [if_neg (by decide)]

/-! ## The body's payload at an index -/

/-- The payload at row p and column e of the block. -/
theorem pay_at (x0 : Vec Ideal S512x1024 .f32) (x1 : Vec Ideal S1024x3072 .bf16) (x2 : Vec Ideal S1x3072 .f32)
    (p : Fin 512) (e : Fin 3072) :
    k0_pay1 (F := Ideal) x0 x1 x2 (ix2 p e) = (∑ d : Fin 1024, x0 (ix2 p d) * x1 (ix2 d e)) + x2 (ix2 0 e) := by
  unfold k0_pay1
  rw [truncf_apply, addf_apply, matmul_at, bias_at]
  simp only [shapeCast_self, truncf_apply]

end K0V

/-- The zero offsets of a whole-buffer rectangle. -/
theorem K0V.hz : (![0, 0] : Fin 2 → Nat) = fun _ => 0 := funext fun a => by fin_cases a <;> rfl

/-- What the body leaves in the output's staging buffer: at row p and column e, the inner product of row p of the
    x block with column e of the weights, plus the bias entry e. -/
theorem out0_3_eq (x0 : Vec Ideal S512x1024 .f32) (x1 : Vec Ideal S1024x3072 .bf16) (x2 : Vec Ideal S1x3072 .f32) :
    out0_3 (F := Ideal) x0 x1 x2
      = Cert.Spec.arr2 (Cert.Spec.blkQkv (Cert.Spec.fn2 x0) (Cert.Spec.fn2 x1) (fun e => x2 (ix2 0 e))) := by
  unfold out0_3
  rw [View.canon_unit_zero K0V.hz]
  simp only [View.ld_unit_zero (S := S512x1024) K0V.hz, View.ld_unit_zero (S := S1024x3072) K0V.hz, View.ld_unit_zero (S := S1x3072) K0V.hz]
  funext j
  obtain ⟨p, e, rfl⟩ : ∃ (p : Fin 512) (e : Fin 3072), j = ix2 p e := ⟨j 0, j 1, eq_ix2 j⟩
  rw [K0V.pay_at]
  rfl

namespace K0V

/-! ## From blocks to the array -/

/-- The index maps over the grid: the x window and the result window move down the rows with the point, at
    column block 0; the weights and the bias stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block of the result is the same rows of the whole projection: when the x block is rows 512·n … of x,
    and the weight and bias blocks are the whole arrays, row p of the block is row 512·n + p of the array. -/
theorem blk_row (A0 : S4096x1024.Idx → EReal) (A1 : S1024x3072.Idx → EReal) (A2 : S1x3072.Idx → EReal)
    (x0 : Vec Ideal S512x1024 .f32) (x1 : Vec Ideal S1024x3072 .bf16) (x2 : Vec Ideal S1x3072 .f32)
    (n : Nat) (hn : n < 8)
    (h0 : ∀ (p : Fin 512) (d : Fin 1024), x0 (ix2 p d) = A0 (ix2 (⟨512 * n + p.val, by omega⟩ : Fin 4096) d))
    (h1 : ∀ (d : Fin 1024) (e : Fin 3072), x1 (ix2 d e) = A1 (ix2 d e))
    (h2 : ∀ e : Fin 3072, x2 (ix2 0 e) = A2 (ix2 0 e))
    (p : Fin 512) (e : Fin 3072) :
    out0_3 (F := Ideal) x0 x1 x2 (ix2 p e)
      = Cert.Spec.arr2 (Cert.Spec.qkvE (Cert.Spec.fn2 A0) (Cert.Spec.fn2 A1) (fun e => A2 (ix2 0 e)))
          (ix2 (⟨512 * n + p.val, by omega⟩ : Fin 4096) e) := by
  rw [out0_3_eq]
  show (∑ d : Fin 1024, x0 (ix2 p d) * x1 (ix2 d e)) + x2 (ix2 0 e)
    = (∑ d : Fin 1024, A0 (ix2 (⟨512 * n + p.val, _⟩ : Fin 4096) d) * A1 (ix2 d e)) + A2 (ix2 0 e)
  rw [h2 e]
  refine congrArg (· + A2 (ix2 0 e)) (Finset.sum_congr rfl fun d _ => ?_)
  rw [h0 p d, h1 d e]

end K0V

namespace K0V

variable (V : Entry Ideal)

/-- Row p of point t's block is a row of the array: 512·t + p < 4096. -/
theorem row_lt (t : Fin cfg0.N) (p : Fin 512) : 512 * t.val + p.val < 4096 := by
  have h8 : cfg0.N = 8 := N_0
  have := t.isLt; have := p.isLt; omega

/-- The x window's block at point t is rows 512·t … 512·t+511 of x. -/
theorem xblk_at (c : Dev nD) (t : Fin cfg0.N) (p : Fin 512) (d : Fin 1024) :
    (iblk0 V c 0 t : Vec Ideal S512x1024 .f32) (ix2 p d)
      = (V c main_v0 : S4096x1024.Idx → EReal) (ix2 (⟨512 * t.val + p.val, row_lt t p⟩ : Fin 4096) d) := by
  obtain ⟨e0, e1, -⟩ := idx_facts t
  show (V c main_v0 : S4096x1024.Idx → EReal) (((cfg0.win 0).blk t).view.emb (ix2 p d)) = _
  refine congrArg (V c main_v0 : S4096x1024.Idx → EReal) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * d.val = d.val; rw [e1]; omega

/-- The weights' block at every point is the whole of W_in. -/
theorem wblk_at (c : Dev nD) (t : Fin cfg0.N) (d : Fin 1024) (e : Fin 3072) :
    (iblk0 V c 1 t : Vec Ideal S1024x3072 .bf16) (ix2 d e) = (V c main_v1 : S1024x3072.Idx → EReal) (ix2 d e) := by
  obtain ⟨-, -, e0, e1, -⟩ := idx_facts t
  show (V c main_v1 : S1024x3072.Idx → EReal) (((cfg0.win 1).blk t).view.emb (ix2 d e)) = _
  refine congrArg (V c main_v1 : S1024x3072.Idx → EReal) (funext fun a => Fin.ext ?_)
  match a with
  | ⟨0, _⟩ => show win0_1.index t (0 : Fin 2) * 1024 + 1 * d.val = d.val; rw [e0]; omega
  | ⟨1, _⟩ => show win0_1.index t (1 : Fin 2) * 3072 + 1 * e.val = e.val; rw [e1]; omega

/-- The bias block at every point is the whole of b_in. -/
theorem bblk_at (c : Dev nD) (t : Fin cfg0.N) (e : Fin 3072) :
    (iblk0 V c 2 t : Vec Ideal S1x3072 .f32) (ix2 0 e) = (V c main_v3 : S1x3072.Idx → EReal) (ix2 0 e) := by
  obtain ⟨-, -, -, -, e0, e1, -⟩ := idx_facts t
  show (V c main_v3 : S1x3072.Idx → EReal) (((cfg0.win 2).blk t).view.emb (ix2 0 e)) = _
  refine congrArg (V c main_v3 : S1x3072.Idx → EReal) (funext fun a => Fin.ext ?_)
  match a with
  | ⟨0, _⟩ => show win0_2.index t (0 : Fin 2) * 1 + 1 * 0 = 0; rw [e0]
  | ⟨1, _⟩ => show win0_2.index t (1 : Fin 2) * 3072 + 1 * e.val = e.val; rw [e1]; omega

end K0V

namespace K0V

variable (V : Entry Ideal)

/-- The projection of the arrays the call is entered with, as one array. -/
abbrev qkvArr (c : Dev nD) : S4096x3072.Idx → EReal :=
  Cert.Spec.arr2 (Cert.Spec.qkvE (Cert.Spec.fn2 (V c main_v0 : S4096x1024.Idx → EReal))
    (Cert.Spec.fn2 (V c main_v1 : S1024x3072.Idx → EReal)) (fun e => (V c main_v3 : S1x3072.Idx → EReal) (ix2 0 e)))

/-- What point t writes back is block t of the projection: rows 512·t … 512·t+511, all 3072 columns. -/
theorem flushed_eq (c : Dev nD) (t : Fin cfg0.N) :
    (dat0 (F := Ideal) V c).flushed 3 t = ((cfg0.win 3).blk t).view.read (Elt Ideal) (qkvArr V c) := by
  show (cfg0.win 3).cut (grid0.coords t) ((dat0 (F := Ideal) V c).after 3 t) = _
  rw [after0_3]
  have h8 : cfg0.N = 8 := N_0
  obtain ⟨-, -, -, -, -, -, e0, e1⟩ := idx_facts t
  have key : ∀ j : S512x3072.Idx,
      out0_3 (F := Ideal) (iblk0 V c 0 t) (iblk0 V c 1 t) (iblk0 V c 2 t) j = qkvArr V c (((cfg0.win 3).blk t).view.emb j) := by
    intro j
    obtain ⟨p, e, rfl⟩ : ∃ (p : Fin 512) (e : Fin 3072), j = ix2 p e := ⟨j 0, j 1, eq_ix2 j⟩
    refine (blk_row (V c main_v0 : S4096x1024.Idx → EReal) (V c main_v1 : S1024x3072.Idx → EReal) (V c main_v3 : S1x3072.Idx → EReal)
      (iblk0 V c 0 t) (iblk0 V c 1 t) (iblk0 V c 2 t) t.val (by have := t.isLt; omega)
      (fun p d => xblk_at V c t p d) (fun d e => wblk_at V c t d e) (fun e => bblk_at V c t e) p e).trans ?_
    refine congrArg (qkvArr V c) (funext fun a => Fin.ext ?_)
    match a with
    | ⟨0, _⟩ => show 512 * t.val + p.val = win0_3.index t (0 : Fin 2) * 512 + 1 * p.val; rw [e0]; omega
    | ⟨1, _⟩ => show e.val = win0_3.index t (1 : Fin 2) * 3072 + 1 * e.val; rw [e1]; omega
  funext j
  exact key j

/-- An index of the result array is in point t's block iff each coordinate is in the block's range on its axis. -/
theorem mem_blk (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Every row r of the result array is in the block of the point r / 512. -/
theorem cover (i : S4096x3072.Idx) :
    ∃ t : Fin cfg0.N, (cfg0.win 3).flush t = true ∧ i ∈ ((cfg0.win 3).blk t).view.set := by
  have h8 : cfg0.N = 8 := N_0
  have hi0 : (i 0).val < 4096 := (i 0).isLt
  have hi1 : (i 1).val < 3072 := (i 1).isLt
  refine ⟨⟨(i 0).val / 512, by omega⟩, flush0_3 _, ?_⟩
  rw [mem_blk]
  obtain ⟨-, -, -, -, -, -, e0, e1⟩ := idx_facts ⟨(i 0).val / 512, by omega⟩
  intro a
  match a with
  | ⟨0, _⟩ =>
    show win0_3.index ⟨(i 0).val / 512, _⟩ (0 : Fin 2) * 512 ≤ (i 0).val ∧ (i 0).val < win0_3.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, _⟩ (1 : Fin 2) * 3072 ≤ (i 1).val ∧ (i 1).val < win0_3.index ⟨(i 0).val / 512, _⟩ (1 : Fin 2) * 3072 + 3072
    rw [e1]; omega

end K0V

/-- THE ARRAY AFTER THE FIRST CALL: the projection of x, W_in and b_in as the call finds them. -/
theorem final0 (V : Entry Ideal) (c : Dev nD) :
    (dat0 (F := Ideal) V c).arrAt 3 cfg0.N
      = Cert.Spec.arr2 (Cert.Spec.qkvE (Cert.Spec.fn2 (V c main_v0)) (Cert.Spec.fn2 (V c main_v1)) (fun e => V c main_v3 (ix2 0 e))) :=
  (dat0 (F := Ideal) V c).arrAt_eq_of_cover 3 (K0V.qkvArr V c) (fun t _ => K0V.flushed_eq V c t) (K0V.cover)

end Cert.KernelIdeal.Hand

end
-- ==== Proof.K1Value.lean ====
/-
  The value of the second pallas_call as one whole-array function.  The call runs over sixteen points t = 8·b + sq;
  at point t it is handed rows 256·t … 256·t+255 of qkv's first 1024 columns (the queries), the 2048 rows of batch
  b = t / 8 of qkv's columns 1024 … 2047 (the keys) and 2048 … 3071 (the values), all of the output weights and the
  bias row, and writes back rows 256·t … 256·t+255 of the result.  Taking as given that the body leaves in the output
  block the block-level function of the five input blocks (attention over the block's batch, then the output
  projection), this module reads each input block at coordinates of its array, shows that the block-level function
  at row p of block t is the whole-array function at row 256·t + p (the row's batch is t / 8 because
  (256·t + p) / 2048 = t / 8; column c of the three blocks is column c, 1024 + c, 2048 + c of qkv), and, since the
  sixteen blocks tile the 4096 rows, concludes that the result array is that whole-array function.
-/
import proofs.«401896_j14491219657281_3_alg».proof.Proof.K1Data
import proofs.«401896_j14491219657281_3_alg».proof.Proof.BlockSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

namespace K1V

/-! ## One block's result on the whole array's rows -/

section Pure
open Cert.Spec

/-- One block's result is the whole array's result on the block's rows.  The block of query rows starts at row
    256·t of qkv; its batch is t / 8, so key row kk and value row kk of the block are row 2048·(t / 8) + kk of qkv,
    which is the row's own batch row kk because (256·t + p) / 2048 = t / 8.  Column c of the three blocks is column
    c, 1024 + c, 2048 + c of qkv, and the d-th column of c's head is the head's d-th query, key, value column. -/
theorem blkOut_eq_outE (Q : Fin 4096 → Fin 3072 → EReal) (Wo : Fin 1024 → Fin 1024 → EReal) (bo : Fin 1024 → EReal)
    (x0 : Fin 256 → Fin 1024 → EReal) (x1 x2 : Fin 2048 → Fin 1024 → EReal)
    (x3 : Fin 1024 → Fin 1024 → EReal) (x4 : Fin 1024 → EReal)
    (t : ℕ) (ht : t < 16)
    (h0 : ∀ (p : Fin 256) (col : Fin 1024), x0 p col = Q ⟨256 * t + p.val, by omega⟩ ⟨col.val, by omega⟩)
    (h1 : ∀ (kk : Fin 2048) (col : Fin 1024), x1 kk col = Q ⟨2048 * (t / 8) + kk.val, by omega⟩ ⟨1024 + col.val, by omega⟩)
    (h2 : ∀ (kk : Fin 2048) (col : Fin 1024), x2 kk col = Q ⟨2048 * (t / 8) + kk.val, by omega⟩ ⟨2048 + col.val, by omega⟩)
    (h3 : x3 = Wo) (h4 : x4 = bo)
    (p : Fin 256) (e : Fin 1024) (r : Fin 4096) (e' : Fin 1024) (hr : r.val = 256 * t + p.val) (he : e'.val = e.val) :
    blkOut x0 x1 x2 x3 x4 p e = outE (scoreK Q) Q Wo bo r e' := by
  subst h3 h4
  obtain rfl : e' = e := Fin.ext he
  unfold blkOut outE
  congr 1
  refine Finset.sum_congr rfl fun c _ => ?_
  congr 1
  unfold blkAtt attRow attE
  have hrow : ∀ kk : Fin 2048, (⟨2048 * (t / 8) + kk.val, by omega⟩ : Fin 4096) = batchRow r kk := fun kk => by
    apply Fin.ext; show 2048 * (t / 8) + kk.val = (r.val / 2048) * 2048 + kk.val; rw [hr]; omega
  have ea : (⟨256 * t + p.val, by omega⟩ : Fin 4096) = r := Fin.ext hr.symm
  congr 1
  · funext kk
    unfold scoreK
    refine Finset.sum_congr rfl fun d _ => ?_
    have eb : (⟨(hcol c d).val, by omega⟩ : Fin 3072) = qCol ⟨c.val / 64, by omega⟩ d := Fin.ext rfl
    have ec : (⟨1024 + (hcol c d).val, by omega⟩ : Fin 3072) = kCol ⟨c.val / 64, by omega⟩ d :=
      Fin.ext (by show 1024 + ((c.val / 64) * 64 + d.val) = 1024 + (c.val / 64) * 64 + d.val; omega)
    rw [h0, h1, hrow, ea, eb, ec]
  · funext kk
    have ed : (⟨2048 + c.val, by omega⟩ : Fin 3072) = vCol ⟨c.val / 64, by omega⟩ ⟨c.val % 64, by omega⟩ :=
      Fin.ext (by show 2048 + c.val = 2048 + (c.val / 64) * 64 + c.val % 64; omega)
    rw [h2, hrow, ed]

end Pure

/-! ## Where each window's block sits in its array -/

/-- The six index maps over the grid's sixteen points: the query block and the output block are block row t; the key
    and the value block are block row t / 8 (the batch) of block columns 1 and 2; the weights and the bias are whole. -/
theorem idx_facts : ∀ t : Fin cfg1.N,
    win1_0.index t (0 : Fin 2) = t.val ∧ win1_0.index t (1 : Fin 2) = 0
  ∧ win1_1.index t (0 : Fin 2) = t.val / 8 ∧ win1_1.index t (1 : Fin 2) = 1
  ∧ win1_2.index t (0 : Fin 2) = t.val / 8 ∧ win1_2.index t (1 : Fin 2) = 2
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

variable (V : Entry Ideal) (c : Dev nD)

/-- The query block's entry (p, col) is qkv's entry (256·t + p, col). -/
theorem blk0_apply (t : Fin cfg1.N) (p : Fin 256) (col : Fin 1024)
    (i : S4096x3072.Idx) (hi0 : (i 0).val = 256 * t.val + p.val) (hi1 : (i 1).val = col.val) :
    (iblk1 V c 0 t : S256x1024.Idx → EReal) (ix2 p col) = (V c main_v5 : S4096x3072.Idx → EReal) i := by
  obtain ⟨e0, e1, -⟩ := idx_facts t
  show V c main_v5 (((cfg1.win 0).blk t).view.emb (ix2 p col)) = V c main_v5 i
  congr 1
  funext a
  apply Fin.ext
  match a with
  | ⟨0, _⟩ => show win1_0.index t (0 : Fin 2) * 256 + 1 * p.val = (i 0).val; rw [e0, hi0]; omega
  | ⟨1, _⟩ => show win1_0.index t (1 : Fin 2) * 1024 + 1 * col.val = (i 1).val; rw [e1, hi1]; omega

/-- The key block's entry (kk, col) is qkv's entry (2048·(t / 8) + kk, 1024 + col). -/
theorem blk1_apply (t : Fin cfg1.N) (kk : Fin 2048) (col : Fin 1024)
    (i : S4096x3072.Idx) (hi0 : (i 0).val = 2048 * (t.val / 8) + kk.val) (hi1 : (i 1).val = 1024 + col.val) :
    (iblk1 V c 1 t : S2048x1024.Idx → EReal) (ix2 kk col) = (V c main_v5 : S4096x3072.Idx → EReal) i := by
  obtain ⟨-, -, e0, e1, -⟩ := idx_facts t
  show V c main_v5 (((cfg1.win 1).blk t).view.emb (ix2 kk col)) = V c main_v5 i
  congr 1
  funext a
  apply Fin.ext
  match a with
  | ⟨0, _⟩ => show win1_1.index t (0 : Fin 2) * 2048 + 1 * kk.val = (i 0).val; rw [e0, hi0]; omega
  | ⟨1, _⟩ => show win1_1.index t (1 : Fin 2) * 1024 + 1 * col.val = (i 1).val; rw [e1, hi1]; omega

/-- The value block's entry (kk, col) is qkv's entry (2048·(t / 8) + kk, 2048 + col). -/
theorem blk2_apply (t : Fin cfg1.N) (kk : Fin 2048) (col : Fin 1024)
    (i : S4096x3072.Idx) (hi0 : (i 0).val = 2048 * (t.val / 8) + kk.val) (hi1 : (i 1).val = 2048 + col.val) :
    (iblk1 V c 2 t : S2048x1024.Idx → EReal) (ix2 kk col) = (V c main_v5 : S4096x3072.Idx → EReal) i := by
  obtain ⟨-, -, -, -, e0, e1, -⟩ := idx_facts t
  show V c main_v5 (((cfg1.win 2).blk t).view.emb (ix2 kk col)) = V c main_v5 i
  congr 1
  funext a
  apply Fin.ext
  match a with
  | ⟨0, _⟩ => show win1_2.index t (0 : Fin 2) * 2048 + 1 * kk.val = (i 0).val; rw [e0, hi0]; omega
  | ⟨1, _⟩ => show win1_2.index t (1 : Fin 2) * 1024 + 1 * col.val = (i 1).val; rw [e1, hi1]; omega

/-- The weight block is the whole weight array. -/
theorem blk3_apply (t : Fin cfg1.N) (a b : Fin 1024) :
    (iblk1 V c 3 t : S1024x1024.Idx → EReal) (ix2 a b) = (V c main_v2 : S1024x1024.Idx → EReal) (ix2 a b) := by
  obtain ⟨-, -, -, -, -, -, e0, e1, -⟩ := idx_facts t
  show V c main_v2 (((cfg1.win 3).blk t).view.emb (ix2 a b)) = V c main_v2 (ix2 a b)
  congr 1
  funext x
  apply Fin.ext
  match x with
  | ⟨0, _⟩ => show win1_3.index t (0 : Fin 2) * 1024 + 1 * a.val = a.val; rw [e0]; omega
  | ⟨1, _⟩ => show win1_3.index t (1 : Fin 2) * 1024 + 1 * b.val = b.val; rw [e1]; omega

/-- The bias block is the whole bias row. -/
theorem blk4_apply (t : Fin cfg1.N) (a : Fin 1) (b : Fin 1024) :
    (iblk1 V c 4 t : S1x1024.Idx → EReal) (ix2 a b) = (V c main_v4 : S1x1024.Idx → EReal) (ix2 a b) := by
  obtain ⟨-, -, -, -, -, -, -, -, e0, e1, -⟩ := idx_facts t
  show V c main_v4 (((cfg1.win 4).blk t).view.emb (ix2 a b)) = V c main_v4 (ix2 a b)
  congr 1
  funext x
  apply Fin.ext
  match x with
  | ⟨0, _⟩ => show win1_4.index t (0 : Fin 2) * 1 + 1 * a.val = a.val; rw [e0]; omega
  | ⟨1, _⟩ => show win1_4.index t (1 : Fin 2) * 1024 + 1 * b.val = b.val; rw [e1]; omega

/-! ## What a point writes back, and the whole array -/

/-- An index of the result array is in point t's block iff each coordinate is in the block's range on its axis. -/
theorem mem_blk5 (t : Fin cfg1.N) (i : S4096x1024.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v6).slice (win1_5.rect t)).set ↔ _
  rw [View.set_slice_whole, Rect.mem_set_unit]
  exact Iff.rfl

/-- Row r of the result array lies in the block of point r / 256, which is written back. -/
theorem cover5 (i : S4096x1024.Idx) : ∃ t : Fin cfg1.N, (cfg1.win 5).flush t = true ∧ i ∈ ((cfg1.win 5).blk t).view.set := by
  have hi0 : (i 0).val < 4096 := (i 0).isLt
  have hi1 : (i 1).val < 1024 := (i 1).isLt
  have hN : grid1.N = 16 := N_1
  obtain ⟨t, ht⟩ : ∃ t : Fin cfg1.N, t.val = (i 0).val / 256 := ⟨⟨(i 0).val / 256, by show _ < grid1.N; rw [hN]; omega⟩, rfl⟩
  refine ⟨t, flush1_5 t, ?_⟩
  rw [mem_blk5]
  obtain ⟨-, -, -, -, -, -, -, -, -, -, e0, e1⟩ := idx_facts t
  intro a
  match a with
  | ⟨0, _⟩ => show win1_5.index t (0 : Fin 2) * 256 ≤ (i 0).val ∧ (i 0).val < win1_5.index t (0 : Fin 2) * 256 + 256; rw [e0, ht]; omega
  | ⟨1, _⟩ => show win1_5.index t (1 : Fin 2) * 1024 ≤ (i 1).val ∧ (i 1).val < win1_5.index t (1 : Fin 2) * 1024 + 1024; rw [e1]; omega

/-- The result array as one function of the arrays the call is entered with. -/
abbrev G1 : S4096x1024.Idx → EReal :=
  Cert.Spec.arr2 (Cert.Spec.outE (Cert.Spec.scoreK (Cert.Spec.fn2 (V c main_v5))) (Cert.Spec.fn2 (V c main_v5)) (Cert.Spec.fn2 (V c main_v2)) (fun e => V c main_v4 (ix2 0 e)))

/-- What point t writes back is block t of the whole result: the block's own result, read at the rows 256·t … of the
    whole array's. -/
theorem flushed_eq (hpay : ∀ (x0 : Vec Ideal S256x1024 .bf16) (x1 x2 : Vec Ideal S2048x1024 .bf16) (x3 : Vec Ideal S1024x1024 .bf16) (x4 : Vec Ideal S1x1024 .f32),
      out1_5 (F := Ideal) x0 x1 x2 x3 x4 = Cert.Spec.arr2 (Cert.Spec.blkOut (Cert.Spec.fn2 x0) (Cert.Spec.fn2 x1) (Cert.Spec.fn2 x2) (Cert.Spec.fn2 x3) (fun e => x4 (ix2 0 e)))) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5, hpay (iblk1 V c 0 t) (iblk1 V c 1 t) (iblk1 V c 2 t) (iblk1 V c 3 t) (iblk1 V c 4 t)]
  obtain ⟨-, -, -, -, -, -, -, -, -, -, e0, e1⟩ := idx_facts t
  have ht : t.val < 16 := lt_of_lt_of_eq t.isLt N_1
  funext j
  have hj0 : (j 0).val < 256 := (j 0).isLt
  have hj1 : (j 1).val < 1024 := (j 1).isLt
  exact blkOut_eq_outE (Cert.Spec.fn2 (V c main_v5)) (Cert.Spec.fn2 (V c main_v2)) (fun e => V c main_v4 (ix2 0 e))
    (Cert.Spec.fn2 (iblk1 V c 0 t)) (Cert.Spec.fn2 (iblk1 V c 1 t)) (Cert.Spec.fn2 (iblk1 V c 2 t))
    (Cert.Spec.fn2 (iblk1 V c 3 t)) (fun e => iblk1 V c 4 t (ix2 0 e)) t.val ht
    (fun p col => blk0_apply V c t p col _ rfl rfl)
    (fun kk col => blk1_apply V c t kk col _ rfl rfl)
    (fun kk col => blk2_apply V c t kk col _ rfl rfl)
    (funext fun a => funext fun b => blk3_apply V c t a b)
    (funext fun e => blk4_apply V c t 0 e)
    ⟨(j 0).val, hj0⟩ ⟨(j 1).val, hj1⟩ _ _
    (by show win1_5.index t (0 : Fin 2) * 256 + 1 * (j 0).val = 256 * t.val + (j 0).val; rw [e0]; omega)
    (by show win1_5.index t (1 : Fin 2) * 1024 + 1 * (j 1).val = (j 1).val; rw [e1]; omega)

end K1V

/-- The second call's result array after the run: every row's attention row (the kernel's scaled scores) times the
    output weights plus the bias, as one function of qkv, the weights and the bias row the call is entered with. -/
theorem final1 (hpay : ∀ (x0 : Vec Ideal S256x1024 .bf16) (x1 x2 : Vec Ideal S2048x1024 .bf16) (x3 : Vec Ideal S1024x1024 .bf16) (x4 : Vec Ideal S1x1024 .f32),
      out1_5 (F := Ideal) x0 x1 x2 x3 x4 = Cert.Spec.arr2 (Cert.Spec.blkOut (Cert.Spec.fn2 x0) (Cert.Spec.fn2 x1) (Cert.Spec.fn2 x2) (Cert.Spec.fn2 x3) (fun e => x4 (ix2 0 e)))) (V : Entry Ideal) (c : Dev nD) :
    (dat1 (F := Ideal) V c).arrAt 5 cfg1.N = Cert.Spec.arr2 (Cert.Spec.outE (Cert.Spec.scoreK (Cert.Spec.fn2 (V c main_v5))) (Cert.Spec.fn2 (V c main_v5)) (Cert.Spec.fn2 (V c main_v2)) (fun e => V c main_v4 (ix2 0 e))) :=
  (dat1 (F := Ideal) V c).arrAt_eq_of_cover 5 (K1V.G1 V c) (fun t _ => K1V.flushed_eq V c hpay t) K1V.cover5

end Cert.KernelIdeal.Hand
end
-- ==== Proof.K1Pay.lean ====
/-
  The second pallas_call's payloads as mathematics, over variables of the literal block types (no pipeline, no grid).
  One head of attention is three stages: the scores (each query entry times 1/8, then the inner product over the
  head's 64 columns with a key row), the shifted exponentials (each row less its maximum, exponentiated), and the
  weighted values (each row of exponentials divided by its sum, times a value column).  Trip k of the loop runs the
  three stages twice, on columns 0 … 63 and 64 … 127 of its 128-column band, and stores the two heads' outputs side
  by side; read at (p, j) that is the block's attention entry at column 128·k + j, whose head is (128·k + j) / 64.
  The eight bands tile the scratch, so after the loop the scratch is the block's attention rows; the body's one
  store is those rows times the output weights plus the bias row.
-/
import proofs.«401896_j14491219657281_3_alg».proof.Proof.K1Data
import proofs.«401896_j14491219657281_3_alg».proof.Proof.BlockSpec
import Idealize.ShloMosaic.Lib.ValueLayout
import Idealize.ShloMosaic.Lib.ValueIdx
import Idealize.ShloMosaic.Lib.Pipeline.Value
import Idealize.ShloMosaic.PureOps.Ideal.Laws
import Idealize.ShloMosaic.Lib.Ring
import Idealize.ShloMosaic.Lib.Tactic

set_option maxRecDepth 16384

noncomputable section

open scoped BigOperators

namespace Cert.KernelIdeal.Hand.K1P

open Cert.KernelIdeal Cert.KernelIdeal.Gen
open Idealize.ShloMosaic Idealize.ShloMosaic.ValueIdx Idealize.ShloMosaic.Tactic

/-! ## Two layout operations of a kept unit column, read at coordinates -/

section Layout
variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three contractions read at coordinates -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Scores: row p of the left operand against row n of the right one, over their 64 columns. -/
theorem mm_qk {φ₁ φ₂ : FTy} (lhs : FVec Ideal S256x64 φ₁) (rhs : FVec Ideal S2048x64 φ₂) (p : Fin 256) (n : Fin 2048) :
    matmul dot_S256x64_S2048x64_S256x2048_1_1_0_0_n_n none lhs rhs (constant S256x2048 .f32 0x00000000#32) (ix2 p n)
      = ∑ d : Fin 64, lhs (ix2 p d) * rhs (ix2 n d) := by
  simp only [matmul]
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 p n) ((contrEquiv1 dot_S256x64_S2048x64_S256x2048_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 p n) ((contrEquiv1 dot_S256x64_S2048x64_S256x2048_1_1_0_0_n_n 64 rfl rfl).symm k) = ix2 n k := funext fun a => Fin.ext (by
    match a with
    | ⟨0, _⟩ => exact rhs_qk_0 _ _
    | ⟨1, _⟩ => exact (rhs_qk_1 _ _).trans hk)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights times values: row p of the weights against column d of the values, over the 2048 key rows. -/
theorem mm_pv {φ₁ φ₂ : FTy} (lhs : FVec Ideal S256x2048 φ₁) (rhs : FVec Ideal S2048x64 φ₂) (p : Fin 256) (d : Fin 64) :
    matmul dot_S256x2048_S2048x64_S256x64_1_0_0_1_n_n none lhs rhs (constant S256x64 .f32 0x00000000#32) (ix2 p d)
      = ∑ n : Fin 2048, lhs (ix2 p n) * rhs (ix2 n d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p d) ((contrEquiv1 dot_S256x2048_S2048x64_S256x64_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 p d) ((contrEquiv1 dot_S256x2048_S2048x64_S256x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

theorem lhs_out_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_out_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_out_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_out_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The output projection: row p of the attention block against column e of the weights, over the 1024 columns. -/
theorem mm_out {φ₁ φ₂ : FTy} (lhs : FVec Ideal S256x1024 φ₁) (rhs : FVec Ideal S1024x1024 φ₂) (p : Fin 256) (e : Fin 1024) :
    matmul dot_S256x1024_S1024x1024_S256x1024_1_0_0_1_n_n none lhs rhs (constant S256x1024 .f32 0x00000000#32) (ix2 p e)
      = ∑ c : Fin 1024, lhs (ix2 p c) * rhs (ix2 c e) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p e) ((contrEquiv1 dot_S256x1024_S1024x1024_S256x1024_1_0_0_1_n_n 1024 rfl rfl).symm k) = ix2 p k := funext fun a => Fin.ext (by
    match a with
    | ⟨0, _⟩ => exact lhs_out_0 _ _
    | ⟨1, _⟩ => exact (lhs_out_1 _ _).trans hk)
  have er : dot_S256x1024_S1024x1024_S256x1024_1_0_0_1_n_n.rhsIdx (ix2 p e) ((contrEquiv1 dot_S256x1024_S1024x1024_S256x1024_1_0_0_1_n_n 1024 rfl rfl).symm k) = ix2 k e := funext fun a => Fin.ext (by
    match a with
    | ⟨0, _⟩ => exact (rhs_out_0 _ _).trans hk
    | ⟨1, _⟩ => exact rhs_out_1 _ _)
  rw [el, er]

/-! ## The two row reductions read at coordinates -/

/-- The row maximum: the fold of max from −∞ over the row's 2048 entries. -/
theorem rowmax_apply (v : FVec Ideal S256x2048 .f32) (h : S256x2048.Reduces [1] S256) (hφ : FKind.Formats .f32)
    (hacc : (0xFF800000#32 : BitVec FTy.f32.bits) = FKind.maximumf.neutral .f32 hφ) (p : Fin 256) :
    multiReduction (F := Ideal) .maximumf [1] S256 v 0xFF800000#32 h hφ hacc (ix1 p) = Cert.Spec.rowMax (fun n => v (ix2 p n)) := by
  refine (Ideal.multiReduction_maximumf_single v _ h hφ hacc (ix1 p)).trans ?_
  have hl : (v ∘ h.lift (ix1 p)) = fun n : Fin 2048 => v (ix2 p n) :=
    funext fun n => congrArg v (funext fun a => Fin.ext (by match a with | ⟨0, _⟩ => rfl | ⟨1, _⟩ => rfl))
  rw [hl]
  rfl

/-- The row sum. -/
theorem rowsum_apply (v : FVec Ideal S256x2048 .f32) (h : S256x2048.Reduces [1] S256) (hφ : FKind.Formats .f32)
    (hacc : (0x00000000#32 : BitVec FTy.f32.bits) = FKind.add.neutral .f32 hφ) (p : Fin 256) :
    multiReduction (F := Ideal) .add [1] S256 v 0x00000000#32 h hφ hacc (ix1 p) = ∑ n : Fin 2048, v (ix2 p n) := by
  refine (Ideal.multiReduction_add_single v _ h hφ hacc (ix1 p)).trans ?_
  exact Finset.sum_congr rfl fun n _ => congrArg v (funext fun a => Fin.ext (by match a with | ⟨0, _⟩ => rfl | ⟨1, _⟩ => rfl))

/-! ## One head in three stages: scores, shifted exponentials, weighted values -/

/-- The scores of a 64-column query slice (each entry scaled by 1/8) against a 64-column key slice. -/
def scoresOf (qs : FVec Ideal S256x64 .bf16) (ks : FVec Ideal S2048x64 .bf16) : FVec Ideal S256x2048 .f32 :=
  matmul dot_S256x64_S2048x64_S256x2048_1_1_0_0_n_n none
    (truncf .bf16 (mulf (extf .f32 qs bitsLt_bf16_f32) (broadcast S256x64 (Scalar.ofBits (F := Ideal) .f32 0x3E000000#32))) bitsLt_bf16_f32)
    ks (constant (F := Ideal) S256x2048 .f32 0x00000000#32)

/-- Each row's scores less the row's maximum, exponentiated. -/
def expOf (s : FVec Ideal S256x2048 .f32) : FVec Ideal S256x2048 .f32 :=
  exp (subf s (broadcastTo S256x2048 (shapeCast S256x1
    (multiReduction (F := Ideal) .maximumf [1] S256 s 0xFF800000#32 reduces_S256x2048_S256 (.inl rfl) rfl)
    shapeCasts_S256_S256x1) broadcasts_S256x1_S256x2048))

/-- Each row of exponentials divided by its sum, times a 64-column value slice. -/
def outOf (E : FVec Ideal S256x2048 .f32) (vs : FVec Ideal S2048x64 .bf16) : FVec Ideal S256x64 .f32 :=
  matmul dot_S256x2048_S2048x64_S256x64_1_0_0_1_n_n none
    (truncf .bf16 (divf E (broadcastTo S256x2048 (shapeCast S256x1
      (multiReduction (F := Ideal) .add [1] S256 E 0x00000000#32 reduces_S256x2048_S256 (.inl rfl) rfl)
      shapeCasts_S256_S256x1) broadcasts_S256x1_S256x2048)) bitsLt_bf16_f32)
    vs (constant (F := Ideal) S256x64 .f32 0x00000000#32)

theorem scoresOf_apply (qs : FVec Ideal S256x64 .bf16) (ks : FVec Ideal S2048x64 .bf16) (p : Fin 256) (n : Fin 2048) :
    scoresOf qs ks (ix2 p n) = ∑ d : Fin 64, (qs (ix2 p d) * Cert.Spec.scaleK) * ks (ix2 n d) := by
  unfold scoresOf
  refine (mm_qk _ _ p n).trans ?_
  exact Finset.sum_congr rfl fun d _ => rfl

theorem expOf_apply (s : FVec Ideal S256x2048 .f32) (p : Fin 256) (n : Fin 2048) :
    expOf s (ix2 p n) = Cert.Spec.rowExp (fun m => s (ix2 p m)) n := by
  have hm : broadcastTo S256x2048 (shapeCast S256x1
      (multiReduction (F := Ideal) .maximumf [1] S256 s 0xFF800000#32 reduces_S256x2048_S256 (.inl rfl) rfl)
      shapeCasts_S256_S256x1) broadcasts_S256x1_S256x2048 (ix2 p n) = Cert.Spec.rowMax (fun m => s (ix2 p m)) :=
    (broadcastTo_a1_ab_apply _ _ p n).trans ((shapeCast_a_a1_apply _ _ p 0).trans (rowmax_apply s _ _ _ p))
  exact congrArg (fun m => Ideal.exp (s (ix2 p n) - m)) hm

theorem outOf_apply (E : FVec Ideal S256x2048 .f32) (vs : FVec Ideal S2048x64 .bf16) (p : Fin 256) (d : Fin 64) :
    outOf E vs (ix2 p d) = ∑ n : Fin 2048, Ideal.div (E (ix2 p n)) (∑ m : Fin 2048, E (ix2 p m)) * vs (ix2 n d) := by
  unfold outOf
  refine (mm_pv _ _ p d).trans ?_
  refine Finset.sum_congr rfl fun n _ => ?_
  have hs : broadcastTo S256x2048 (shapeCast S256x1
      (multiReduction (F := Ideal) .add [1] S256 E 0x00000000#32 reduces_S256x2048_S256 (.inl rfl) rfl)
      shapeCasts_S256_S256x1) broadcasts_S256x1_S256x2048 (ix2 p n) = ∑ m : Fin 2048, E (ix2 p m) :=
    (broadcastTo_a1_ab_apply _ _ p n).trans ((shapeCast_a_a1_apply _ _ p 0).trans (rowsum_apply E _ _ _ p))
  exact congrArg (fun m => Ideal.div (E (ix2 p n)) m * vs (ix2 n d)) hs

/-- The three stages composed are one attention head at an entry: the softmax of the row's scores averages the
    value column. -/
theorem head_apply (qs : FVec Ideal S256x64 .bf16) (ks vs : FVec Ideal S2048x64 .bf16) (p : Fin 256) (d : Fin 64) :
    outOf (expOf (scoresOf qs ks)) vs (ix2 p d)
      = Cert.Spec.headOut (fun n => ∑ e : Fin 64, (qs (ix2 p e) * Cert.Spec.scaleK) * ks (ix2 n e)) (fun n => vs (ix2 n d)) := by
  rw [outOf_apply]
  have hs : (fun m : Fin 2048 => scoresOf qs ks (ix2 p m)) = fun n => ∑ e : Fin 64, (qs (ix2 p e) * Cert.Spec.scaleK) * ks (ix2 n e) :=
    funext fun m => scoresOf_apply qs ks p m
  simp only [expOf_apply, hs]
  rfl

/-! ## The kernel's payloads in those stages -/

/-- The first head of a pair: columns 0 … 63 of the three bands. -/
theorem pay6_eq (q : Vec Ideal S256x128 .bf16) (kk v : Vec Ideal S2048x128 .bf16) :
    k1_pay6 (F := Ideal) q kk v
      = outOf (expOf (scoresOf (extractStridedSlice S256x64 ![0, 0] q slices_S256x128_o0_0_S256x64)
            (extractStridedSlice S2048x64 ![0, 0] kk slices_S2048x128_o0_0_S2048x64)))
          (extractStridedSlice S2048x64 ![0, 0] v slices_S2048x128_o0_0_S2048x64) := by
  unfold k1_pay6 k1_pay3 k1_pay4 k1_pay5
  simp only [shapeCast_self]
  rfl

/-- The second head's exponentials: columns 64 … 127 of the query and key bands. -/
theorem pay8_eq (q : Vec Ideal S256x128 .bf16) (kk : Vec Ideal S2048x128 .bf16) :
    k1_pay8 (F := Ideal) q kk
      = expOf (scoresOf (extractStridedSlice S256x64 ![0, 64] q slices_S256x128_o0_64_S256x64)
            (extractStridedSlice S2048x64 ![0, 64] kk slices_S2048x128_o0_64_S2048x64)) := by
  unfold k1_pay8 k1_pay3 k1_pay4
  simp only [shapeCast_self]
  rfl

/-- The second head's values: columns 64 … 127 of the value band. -/
theorem pay7_eq (v : Vec Ideal S2048x128 .bf16) :
    k1_pay7 (F := Ideal) v = extractStridedSlice S2048x64 ![0, 64] v slices_S2048x128_o0_64_S2048x64 := by
  unfold k1_pay7 k1_pay5
  simp only [shapeCast_self]

/-- The stored band: the first head's output beside the second head's. -/
theorem pay1_eq (v42 : FVec Ideal S256x64 .f32) (v45 : FVec Ideal S2048x64 .bf16) (v55 : FVec Ideal S256x2048 .f32) :
    k1_pay1 (F := Ideal) v42 v45 v55
      = concatenate S256x128 1 [⟨S256x64, v42⟩, ⟨S256x64, outOf v55 v45⟩] concatenates_S256x64_S256x64_S256x128_d1 := by
  unfold k1_pay1
  simp only [shapeCast_self]
  rfl

/-! ## A trip's loads at coordinates -/

/-- Trip k's band of a 256-row block reads, at (p, j), the block at column 128·k + j. -/
theorem ldq_apply (x0 : Vec Ideal S256x1024 .bf16) (k : Fin k1_t1_loop.trips) (p : Fin 256) (j : Fin 128) (c : Fin 1024)
    (hc : c.val = 128 * k.val + j.val) : View.ld x0 (rq k) (ix2 p j) = x0 (ix2 p c) := by
  show x0 ((rq k).idx (ix2 p j)) = x0 (ix2 p c)
  refine congrArg x0 (funext fun a => Fin.ext ?_)
  match a with
  | ⟨0, _⟩ =>
    show (k1_off1 k) 0 + 1 * p.val = p.val
    rw [k1_off1_eq]; simp
  | ⟨1, _⟩ =>
    show (k1_off1 k) 1 + 1 * j.val = c.val
    rw [k1_off1_eq, hc]; simp

/-- Trip k's band of a 2048-row block likewise. -/
theorem ldkv_apply (x1 : Vec Ideal S2048x1024 .bf16) (k : Fin k1_t1_loop.trips) (n : Fin 2048) (j : Fin 128) (c : Fin 1024)
    (hc : c.val = 128 * k.val + j.val) : View.ld x1 (rkv k) (ix2 n j) = x1 (ix2 n c) := by
  show x1 ((rkv k).idx (ix2 n j)) = x1 (ix2 n c)
  refine congrArg x1 (funext fun a => Fin.ext ?_)
  match a with
  | ⟨0, _⟩ =>
    show (k1_off2 k) 0 + 1 * n.val = n.val
    rw [k1_off2_eq]; simp
  | ⟨1, _⟩ =>
    show (k1_off2 k) 1 + 1 * j.val = c.val
    rw [k1_off2_eq, hc]; simp

/-! ## Trip k's payload at an entry -/

open Cert.Spec in
/-- Columns 0 … 63 of the band: the pair's first head, 2·k. -/
theorem tripPay_lo (x0 : Vec Ideal S256x1024 .bf16) (x1 x2 : Vec Ideal S2048x1024 .bf16) (k : Fin k1_t1_loop.trips)
    (p : Fin 256) (j : Fin 128) (hj : j.val < 64) (h : 128 * k.val + j.val < 1024) :
    tripPay (F := Ideal) x0 x1 x2 k (ix2 p j) = blkAtt (fn2 x0) (fn2 x1) (fn2 x2) p ⟨128 * k.val + j.val, h⟩ := by
  unfold tripPay
  rw [pay1_eq]
  refine (concatenate_pair_apply_left (t := S256x128) (s₁ := S256x64) (s₂ := S256x64) (1 : Fin S256x128.rank) _ _ _ (ix2 p j) (rfl : S256x64.rank = S256x128.rank) (ix2 p (⟨j.val, hj⟩ : Fin 64))
    (fun b => by match b with | ⟨0, _⟩ => rfl | ⟨1, _⟩ => rfl)).trans ?_
  rw [pay6_eq, head_apply]
  unfold blkAtt
  have hS : (fun n : Fin 2048 => ∑ e : Fin 64,
        (extractStridedSlice (s := S256x128) S256x64 ![0, 0] (View.ld x0 (rq k)) slices_S256x128_o0_0_S256x64 (ix2 p e) * scaleK)
          * extractStridedSlice (s := S2048x128) S2048x64 ![0, 0] (View.ld x1 (rkv k)) slices_S2048x128_o0_0_S2048x64 (ix2 n e))
      = fun n => ∑ d : Fin 64, (fn2 x0 p (hcol ⟨128 * k.val + j.val, h⟩ d) * scaleK) * fn2 x1 n (hcol ⟨128 * k.val + j.val, h⟩ d) :=
    funext fun n => Finset.sum_congr rfl fun e _ => by
      have hq := (slice2_axis1_apply (n0 := 256) (n1 := 128) (m := 64) 0 (View.ld x0 (rq k)) slices_S256x128_o0_0_S256x64 p e ⟨e.val, by omega⟩ (Nat.zero_add _).symm).trans
        (ldq_apply x0 k p ⟨e.val, by omega⟩ (hcol ⟨128 * k.val + j.val, h⟩ e) (by show (128 * k.val + j.val) / 64 * 64 + e.val = 128 * k.val + e.val; omega))
      have hk := (slice2_axis1_apply (n0 := 2048) (n1 := 128) (m := 64) 0 (View.ld x1 (rkv k)) slices_S2048x128_o0_0_S2048x64 n e ⟨e.val, by omega⟩ (Nat.zero_add _).symm).trans
        (ldkv_apply x1 k n ⟨e.val, by omega⟩ (hcol ⟨128 * k.val + j.val, h⟩ e) (by show (128 * k.val + j.val) / 64 * 64 + e.val = 128 * k.val + e.val; omega))
      rw [hq, hk]; rfl
  have hV : (fun n : Fin 2048 => extractStridedSlice (s := S2048x128) S2048x64 ![0, 0] (View.ld x2 (rkv k)) slices_S2048x128_o0_0_S2048x64 (ix2 n (⟨j.val, hj⟩ : Fin 64)))
      = fun n => fn2 x2 n ⟨128 * k.val + j.val, h⟩ :=
    funext fun n => (slice2_axis1_apply (n0 := 2048) (n1 := 128) (m := 64) 0 (View.ld x2 (rkv k)) slices_S2048x128_o0_0_S2048x64 n ⟨j.val, hj⟩ ⟨j.val, by omega⟩ (Nat.zero_add _).symm).trans
      (ldkv_apply x2 k n ⟨j.val, by omega⟩ ⟨128 * k.val + j.val, h⟩ rfl)
  rw [hS, hV]

open Cert.Spec in
/-- Columns 64 … 127 of the band: the pair's second head, 2·k + 1. -/
theorem tripPay_hi (x0 : Vec Ideal S256x1024 .bf16) (x1 x2 : Vec Ideal S2048x1024 .bf16) (k : Fin k1_t1_loop.trips)
    (p : Fin 256) (j : Fin 128) (hj : 64 ≤ j.val) (h : 128 * k.val + j.val < 1024) :
    tripPay (F := Ideal) x0 x1 x2 k (ix2 p j) = blkAtt (fn2 x0) (fn2 x1) (fn2 x2) p ⟨128 * k.val + j.val, h⟩ := by
  have hj' : j.val - 64 < 64 := by have := j.isLt; omega
  unfold tripPay
  rw [pay1_eq]
  refine (concatenate_pair_apply_right (t := S256x128) (s₁ := S256x64) (s₂ := S256x64) (1 : Fin S256x128.rank) _ _ _ (ix2 p j) (rfl : S256x64.rank = S256x128.rank) (rfl : S256x64.rank = S256x128.rank) (ix2 p (⟨j.val - 64, hj'⟩ : Fin 64))
    (fun b hb => by
      match b with
      | ⟨0, _⟩ => rfl
      | ⟨1, _⟩ => exact absurd rfl hb)
    (by show j.val - 64 + 64 = j.val; omega)).trans ?_
  rw [pay8_eq, pay7_eq, head_apply]
  unfold blkAtt
  have hS : (fun n : Fin 2048 => ∑ e : Fin 64,
        (extractStridedSlice (s := S256x128) S256x64 ![0, 64] (View.ld x0 (rq k)) slices_S256x128_o0_64_S256x64 (ix2 p e) * scaleK)
          * extractStridedSlice (s := S2048x128) S2048x64 ![0, 64] (View.ld x1 (rkv k)) slices_S2048x128_o0_64_S2048x64 (ix2 n e))
      = fun n => ∑ d : Fin 64, (fn2 x0 p (hcol ⟨128 * k.val + j.val, h⟩ d) * scaleK) * fn2 x1 n (hcol ⟨128 * k.val + j.val, h⟩ d) :=
    funext fun n => Finset.sum_congr rfl fun e _ => by
      have hq := (slice2_axis1_apply (n0 := 256) (n1 := 128) (m := 64) 64 (View.ld x0 (rq k)) slices_S256x128_o0_64_S256x64 p e ⟨64 + e.val, by omega⟩ rfl).trans
        (ldq_apply x0 k p ⟨64 + e.val, by omega⟩ (hcol ⟨128 * k.val + j.val, h⟩ e) (by show (128 * k.val + j.val) / 64 * 64 + e.val = 128 * k.val + (64 + e.val); have := j.isLt; omega))
      have hk := (slice2_axis1_apply (n0 := 2048) (n1 := 128) (m := 64) 64 (View.ld x1 (rkv k)) slices_S2048x128_o0_64_S2048x64 n e ⟨64 + e.val, by omega⟩ rfl).trans
        (ldkv_apply x1 k n ⟨64 + e.val, by omega⟩ (hcol ⟨128 * k.val + j.val, h⟩ e) (by show (128 * k.val + j.val) / 64 * 64 + e.val = 128 * k.val + (64 + e.val); have := j.isLt; omega))
      rw [hq, hk]; rfl
  have hV : (fun n : Fin 2048 => extractStridedSlice (s := S2048x128) S2048x64 ![0, 64] (View.ld x2 (rkv k)) slices_S2048x128_o0_64_S2048x64 (ix2 n (⟨j.val - 64, hj'⟩ : Fin 64)))
      = fun n => fn2 x2 n ⟨128 * k.val + j.val, h⟩ :=
    funext fun n => (slice2_axis1_apply (n0 := 2048) (n1 := 128) (m := 64) 64 (View.ld x2 (rkv k)) slices_S2048x128_o0_64_S2048x64 n ⟨j.val - 64, hj'⟩ ⟨j.val, j.isLt⟩ (by show j.val = 64 + (j.val - 64); omega)).trans
      (ldkv_apply x2 k n ⟨j.val, j.isLt⟩ ⟨128 * k.val + j.val, h⟩ rfl)
  rw [hS, hV]

/-- Trip k's payload at (p, j) is the block's attention entry at column 128·k + j. -/
theorem tripPay_apply (x0 : Vec Ideal S256x1024 .bf16) (x1 x2 : Vec Ideal S2048x1024 .bf16) (k : Fin k1_t1_loop.trips)
    (p : Fin 256) (j : Fin 128) (h : 128 * k.val + j.val < 1024) :
    tripPay (F := Ideal) x0 x1 x2 k (ix2 p j)
      = Cert.Spec.blkAtt (Cert.Spec.fn2 x0) (Cert.Spec.fn2 x1) (Cert.Spec.fn2 x2) p ⟨128 * k.val + j.val, h⟩ := by
  by_cases hj : j.val < 64
  · exact tripPay_lo x0 x1 x2 k p j hj h
  · exact tripPay_hi x0 x1 x2 k p j (Nat.le_of_not_lt hj) h

/-! ## The scratch after the loop -/

open Cert.Spec in
/-- Each trip's payload is the attention block on its band. -/
theorem piece_ok (x0 : Vec Ideal S256x1024 .bf16) (x1 x2 : Vec Ideal S2048x1024 .bf16) (k : Fin k1_t1_loop.trips) (x : S256x128.Idx) :
    tripPay (F := Ideal) x0 x1 x2 k x = arr2 (blkAtt (fn2 x0) (fn2 x1) (fn2 x2)) ((rq k).emb x) := by
  obtain ⟨p, j, rfl⟩ : ∃ (p : Fin 256) (j : Fin 128), x = ix2 p j := ⟨x 0, x 1, eq_ix2 x⟩
  have hk : k.val < 8 := lt_of_lt_of_le k.isLt k1_t1_abs.2.1
  have h : 128 * k.val + j.val < 1024 := by have := j.isLt; omega
  rw [tripPay_apply x0 x1 x2 k p j h]
  unfold arr2
  congr 1 <;> refine Fin.ext ?_
  · show p.val = (k1_off1 k) 0 + 1 * p.val
    rw [k1_off1_eq]; simp
  · show 128 * k.val + j.val = (k1_off1 k) 1 + 1 * j.val
    rw [k1_off1_eq]; simp

/-- The eight bands tile the scratch. -/
theorem scr_cover (x0 : Vec Ideal S256x1024 .bf16) (x1 x2 : Vec Ideal S2048x1024 .bf16) (y : S256x1024.Idx) :
    ∃ pc ∈ tripPieces (F := Ideal) x0 x1 x2, y ∈ pc.1.set :=
  View.cover_of_tiledL (tripPieces (F := Ideal) x0 x1 x2) S256x128.size (by sl_kernel_rfl) y

open Cert.Spec in
/-- The scratch after the eight trips is the block's attention rows, whatever it held before. -/
theorem scr_eq (x0 : Vec Ideal S256x1024 .bf16) (x1 x2 : Vec Ideal S2048x1024 .bf16) :
    scr (F := Ideal) x0 x1 x2 = arr2 (blkAtt (fn2 x0) (fn2 x1) (fn2 x2)) := by
  funext y
  unfold scr
  refine View.canon_apply_of_pieces (Val := Elt Ideal) (arr2 (blkAtt (fn2 x0) (fn2 x1) (fn2 x2))) (tripPieces x0 x1 x2) ?_ y (scr_cover x0 x1 x2 y)
  intro pc hpc x
  unfold tripPieces at hpc
  simp only [List.mem_cons, List.not_mem_nil, or_false] at hpc
  rcases hpc with rfl | rfl | rfl | rfl | rfl | rfl | rfl | rfl <;> exact piece_ok x0 x1 x2 _ x

end Cert.KernelIdeal.Hand.K1P

namespace Cert.KernelIdeal.Hand

open Cert.KernelIdeal Cert.KernelIdeal.Gen
open Idealize.ShloMosaic Idealize.ShloMosaic.ValueIdx

/-- The zero offsets of a whole-buffer rectangle. -/
theorem K1P.hz2 : (![0, 0] : Fin 2 → ℕ) = fun _ => 0 := by
  funext a
  match a with
  | ⟨0, _⟩ => rfl
  | ⟨1, _⟩ => rfl

/-- What the body leaves in the output block: each attention row times the output weights, plus the bias row. -/
theorem out1_5_eq (x0 : Vec Ideal S256x1024 .bf16) (x1 x2 : Vec Ideal S2048x1024 .bf16) (x3 : Vec Ideal S1024x1024 .bf16)
    (x4 : Vec Ideal S1x1024 .f32) :
    out1_5 (F := Ideal) x0 x1 x2 x3 x4
      = Cert.Spec.arr2 (Cert.Spec.blkOut (Cert.Spec.fn2 x0) (Cert.Spec.fn2 x1) (Cert.Spec.fn2 x2) (Cert.Spec.fn2 x3) (fun e => x4 (ix2 0 e))) := by
  unfold out1_5
  rw [View.canon_unit_zero K1P.hz2, View.ld_unit_zero (S := S256x1024) K1P.hz2, View.ld_unit_zero (S := S1024x1024) K1P.hz2,
    View.ld_unit_zero (S := S1x1024) K1P.hz2]
  funext y
  obtain ⟨p, e, rfl⟩ : ∃ (p : Fin 256) (e : Fin 1024), y = ix2 p e := ⟨y 0, y 1, eq_ix2 y⟩
  unfold k1_pay2
  simp only [shapeCast_self]
  refine (addf_apply _ _ (ix2 p e)).trans ?_
  rw [K1P.mm_out, broadcastTo_1b_ab_apply, K1P.scr_eq]
  rfl

end Cert.KernelIdeal.Hand

end
-- ==== Proof.KernelValue.lean ====
/-
  What the kernel program returns, at coordinates, as a function of its five arguments: the last reshape read at
  (b, s, e) is the attention call's output array at row 2048·b + s, which is the output projection of the attention
  row over the projected array; the projected array is the projection call's output, over x reshaped to 4096 rows,
  W_in and b_in (the conversions of the weights change nothing over the extended reals).
-/
import proofs.«401896_j14491219657281_3_alg».proof.Proof.Fold
import proofs.«401896_j14491219657281_3_alg».proof.Proof.K0Value
import proofs.«401896_j14491219657281_3_alg».proof.Proof.K1Value
import proofs.«401896_j14491219657281_3_alg».proof.Proof.K1Pay
import proofs.«401896_j14491219657281_3_alg».proof.Proof.HostReads

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The projected array over the launch contents: row r is token (r / 2048, r % 2048) of x. -/
def Qk (c : Dev nD) : Fin 4096 → Fin 3072 → EReal :=
  Cert.Spec.qkvE
    (fun r d => (m ((c : Thread nD τ).loc main_arg0) : S2x2048x1024.Idx → EReal)
      (ix3 (⟨r.val / 2048, by omega⟩ : Fin 2) (⟨r.val % 2048, by omega⟩ : Fin 2048) d))
    (Cert.Spec.fn2 (m ((c : Thread nD τ).loc main_arg1) : S1024x3072.Idx → EReal))
    (fun e => (m ((c : Thread nD τ).loc main_arg2) : S3072.Idx → EReal) (ix1 e))

/-- A function of two coordinates, made an array and read back by coordinates, is itself. -/
theorem fn2_arr2 {a b : ℕ} (f : Fin a → Fin b → EReal) : Cert.Spec.fn2 (Cert.Spec.arr2 f) = f := rfl

/-- The projection call leaves the projected array. -/
theorem qkv_eq (c : Dev nD) : Cert.Spec.fn2 (V2 m c main_v5 : S4096x3072.Idx → EReal) = Qk m c := by
  have hx : Cert.Spec.fn2 (V1 m c main_v0 : S4096x1024.Idx → EReal)
      = fun r d => (m ((c : Thread nD τ).loc main_arg0) : S2x2048x1024.Idx → EReal)
          (ix3 (⟨r.val / 2048, by omega⟩ : Fin 2) (⟨r.val % 2048, by omega⟩ : Fin 2048) d) :=
    funext fun r => funext fun d => V1_x m c r d
  have hb : (fun e : Fin 3072 => (V1 m c main_v3 : S1x3072.Idx → EReal) (ix2 (0 : Fin 1) e))
      = fun e => (m ((c : Thread nD τ).loc main_arg2) : S3072.Idx → EReal) (ix1 e) :=
    funext fun e => V1_b m c e
  rw [V2_qkv, final0, fn2_arr2, hx, V1_w, hb]
  rfl

/-- The kernel program's result at (b, s, e). -/
theorem kernel_out (c : Dev nD) (b : Fin 2) (s : Fin 2048) (e : Fin 1024) :
    (W4 m c (Proc.devRef .tc main_v7) : S2x2048x1024.Idx → EReal) (ix3 b s e)
      = Cert.Spec.outE (Cert.Spec.scoreK (Qk m c)) (Qk m c)
          (Cert.Spec.fn2 (m ((c : Thread nD τ).loc main_arg3) : S1024x1024.Idx → EReal))
          (fun e => (m ((c : Thread nD τ).loc main_arg4) : S1024.Idx → EReal) (ix1 e))
          (⟨b.val * 2048 + s.val, by omega⟩ : Fin 4096) e := by
  have hbo : (fun e' : Fin 1024 => (V2 m c main_v4 : S1x1024.Idx → EReal) (ix2 (0 : Fin 1) e'))
      = fun e' => (m ((c : Thread nD τ).loc main_arg4) : S1024.Idx → EReal) (ix1 e') :=
    funext fun e' => V2_bo m c e'
  rw [W4_out, final1 out1_5_eq (V2 m) c]
  show Cert.Spec.outE _ _ _ _ (⟨b.val * 2048 + s.val, _⟩ : Fin 4096) e = _
  rw [qkv_eq, V2_wo, hbo]

end Cert.KernelIdeal.Hand

end
-- ==== Proof.RefScores.lean ====
/-
  The first half of the reference, read at coordinates.  The projected array is the rank-3 array of stage 3:
  its entry at (b, s, e) is the projection's entry at token row b · 2048 + s and column e.  The three thirds of its
  columns are cut out, their 1024 columns regrouped as 16 heads of 64, and the head axis moved in front of the
  token axis: entry (b, h, s, d) of the query, key and value arrays is the projected entry at row b · 2048 + s and
  column 64 · h + d, 1024 + 64 · h + d, 2048 + 64 · h + d.  The scores contract the last axis of the query and key
  arrays and are divided by the square root of 64.
-/
import proofs.«401896_j14491219657281_3_alg».proof.Proof.Gen.ReferenceIdeal.Read
import proofs.«401896_j14491219657281_3_alg».proof.Proof.Spec

noncomputable section

open scoped BigOperators

namespace Cert.RefScores

open Cert.ReferenceIdeal Cert.ReferenceIdeal.Read Idealize.ShloMosaic Idealize.ShloMosaic.ValueIdx

/-- The projected array over plain coordinates: 4096 token rows (batch-major), 3072 columns. -/
def Qref (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) : Fin 4096 → Fin 3072 → EReal :=
  Cert.Spec.qkvE (fun r d => x0 (ix3 (⟨r.val / 2048, by omega⟩ : Fin 2) (⟨r.val % 2048, by omega⟩ : Fin 2048) d))
    (Cert.Spec.fn2 x1) (fun e => x2 (ix1 e))

/-- Token row s of batch b. -/
def tok (b : Fin 2) (s : Fin 2048) : Fin 4096 := ⟨b.val * 2048 + s.val, by omega⟩

/-- Row k of the batch of token row (b, q) is token row (b, k). -/
theorem batchRow_tok (b : Fin 2) (q k : Fin 2048) : Cert.Spec.batchRow (tok b q) k = tok b k := by
  apply Fin.ext
  show (b.val * 2048 + q.val) / 2048 * 2048 + k.val = b.val * 2048 + k.val
  omega

variable (x0 : (⟨S2x2048x1024, .f32⟩ : BufTy).Contents (Elt Ideal)) (x1 : (⟨S1024x3072, .f32⟩ : BufTy).Contents (Elt Ideal))
  (x2 : (⟨S3072, .f32⟩ : BufTy).Contents (Elt Ideal))

/-- Stage 3 at (b, s, e): the contraction over the 1024 input columns plus the bias entry. -/
theorem proj_apply (b : Fin 2) (s : Fin 2048) (e : Fin 3072) :
    val_main_v3 (F := Ideal) x0 x1 x2 (ix3 b s e) = Qref x0 x1 x2 (tok b s) e := by
  have hl : ∀ k : Fin 1024, lidx_main_v0 (ix3 b s e) k
      = ix3 (⟨(tok b s).val / 2048, by omega⟩ : Fin 2) (⟨(tok b s).val % 2048, by omega⟩ : Fin 2048) k := fun k =>
    funext fun a => Fin.ext (by
      match a with
      | ⟨0, _⟩ => show b.val = (b.val * 2048 + s.val) / 2048; omega
      | ⟨1, _⟩ => show s.val = (b.val * 2048 + s.val) % 2048; omega
      | ⟨2, _⟩ => rfl)
  have hr : ∀ k : Fin 1024, ridx_main_v0 (ix3 b s e) k = ix2 k e := fun k =>
    funext fun a => Fin.ext (by
      match a with
      | ⟨0, _⟩ => rfl
      | ⟨1, _⟩ => rfl)
  have hb : idx_main_v1 (idx_main_v2 (ix3 b s e)) = ix1 e :=
    funext fun a => Fin.ext (by
      match a with
      | ⟨0, _⟩ => rfl)
  rw [val_main_v3_apply, val_main_v0_apply, val_main_v2_apply, val_main_v1_apply, hb]
  simp only [hl, hr, Ideal.addf_def]
  rfl

/-- The regrouping of 1024 columns as 16 heads of 64 followed by the exchange of the head and token axes reads the
    rank-3 array at (b, s, 64 · h + d). -/
theorem regroup_idx (b : Fin 2) (h : Fin 16) (s : Fin 2048) (d : Fin 64) :
    idx_main_v7 (idx_main_v8 (ix4 b h s d)) = ix3 b s (⟨h.val * 64 + d.val, by omega⟩ : Fin 1024) :=
  funext fun a => Fin.ext (by
    match a with
    | ⟨0, _⟩ =>
      show (((b.val * 2048 + s.val) * 16 + h.val) * 64 + d.val) / 2097152 = b.val
      omega
    | ⟨1, _⟩ =>
      show (((b.val * 2048 + s.val) * 16 + h.val) * 64 + d.val) / 1024 % 2048 = s.val
      omega
    | ⟨2, _⟩ =>
      show (((b.val * 2048 + s.val) * 16 + h.val) * 64 + d.val) % 1024 = h.val * 64 + d.val
      omega)

/-- The query array at (b, h, s, d): the projected entry at row (b, s), column 64 · h + d. -/
theorem queries_apply (b : Fin 2) (h : Fin 16) (s : Fin 2048) (d : Fin 64) :
    val_main_v8 (F := Ideal) x0 x1 x2 (ix4 b h s d) = Qref x0 x1 x2 (tok b s) (Cert.Spec.qCol h d) := by
  have hc : idx_main_v4 (ix3 b s (⟨h.val * 64 + d.val, by omega⟩ : Fin 1024)) = ix3 b s (Cert.Spec.qCol h d) :=
    funext fun a => Fin.ext (by
      match a with
      | ⟨0, _⟩ => rfl
      | ⟨1, _⟩ => rfl
      | ⟨2, _⟩ => rfl)
  rw [val_main_v8_apply, val_main_v7_apply, val_main_v4_apply, regroup_idx, hc]
  exact proj_apply x0 x1 x2 b s _

/-- The key array at (b, h, s, d): the projected entry at row (b, s), column 1024 + 64 · h + d. -/
theorem keys_apply (b : Fin 2) (h : Fin 16) (s : Fin 2048) (d : Fin 64) :
    val_main_v10 (F := Ideal) x0 x1 x2 (ix4 b h s d) = Qref x0 x1 x2 (tok b s) (Cert.Spec.kCol h d) := by
  have hc : idx_main_v5 (ix3 b s (⟨h.val * 64 + d.val, by omega⟩ : Fin 1024)) = ix3 b s (Cert.Spec.kCol h d) :=
    funext fun a => Fin.ext (by
      match a with
      | ⟨0, _⟩ => rfl
      | ⟨1, _⟩ => rfl
      | ⟨2, _⟩ => show 1024 + (h.val * 64 + d.val) = 1024 + h.val * 64 + d.val; omega)
  rw [val_main_v10_apply, val_main_v9_apply, val_main_v5_apply]
  rw [show idx_main_v9 (idx_main_v10 (ix4 b h s d)) = ix3 b s (⟨h.val * 64 + d.val, by omega⟩ : Fin 1024) from
    regroup_idx b h s d, hc]
  exact proj_apply x0 x1 x2 b s _

/-- The value array at (b, h, k, d): the projected entry at row (b, k), column 2048 + 64 · h + d. -/
theorem values_apply (b : Fin 2) (h : Fin 16) (k : Fin 2048) (d : Fin 64) :
    val_main_v12 (F := Ideal) x0 x1 x2 (ix4 b h k d) = Qref x0 x1 x2 (tok b k) (Cert.Spec.vCol h d) := by
  have hc : idx_main_v6 (ix3 b k (⟨h.val * 64 + d.val, by omega⟩ : Fin 1024)) = ix3 b k (Cert.Spec.vCol h d) :=
    funext fun a => Fin.ext (by
      match a with
      | ⟨0, _⟩ => rfl
      | ⟨1, _⟩ => rfl
      | ⟨2, _⟩ => show 2048 + (h.val * 64 + d.val) = 2048 + h.val * 64 + d.val; omega)
  rw [val_main_v12_apply, val_main_v11_apply, val_main_v6_apply]
  rw [show idx_main_v11 (idx_main_v12 (ix4 b h k d)) = ix3 b k (⟨h.val * 64 + d.val, by omega⟩ : Fin 1024) from
    regroup_idx b h k d, hc]
  exact proj_apply x0 x1 x2 b k _

/-- The undivided scores at (b, h, q, k): the inner product of query row (b, q) and key row (b, k) over head h's 64 columns. -/
theorem dots_apply (b : Fin 2) (h : Fin 16) (q k : Fin 2048) :
    val_main_v13 (F := Ideal) x0 x1 x2 (ix4 b h q k)
      = ∑ d : Fin 64, Qref x0 x1 x2 (tok b q) (Cert.Spec.qCol h d) * Qref x0 x1 x2 (tok b k) (Cert.Spec.kCol h d) := by
  have hl : ∀ d : Fin 64, lidx_main_v13 (ix4 b h q k) d = ix4 b h q d := fun d =>
    funext fun a => Fin.ext (by
      match a with
      | ⟨0, _⟩ => rfl
      | ⟨1, _⟩ => rfl
      | ⟨2, _⟩ => rfl
      | ⟨3, _⟩ => rfl)
  have hr : ∀ d : Fin 64, ridx_main_v13 (ix4 b h q k) d = ix4 b h k d := fun d =>
    funext fun a => Fin.ext (by
      match a with
      | ⟨0, _⟩ => rfl
      | ⟨1, _⟩ => rfl
      | ⟨2, _⟩ => rfl
      | ⟨3, _⟩ => rfl)
  rw [val_main_v13_apply]
  refine Finset.sum_congr rfl fun d _ => ?_
  rw [hl, hr, queries_apply, keys_apply]

/-- The scores at (b, h, q, k): the inner product divided by the square root of 64. -/
theorem scores_apply (b : Fin 2) (h : Fin 16) (q k : Fin 2048) :
    val_main_v16 (F := Ideal) x0 x1 x2 (ix4 b h q k) = Cert.Spec.scoreR (Qref x0 x1 x2) (tok b q) h k := by
  rw [val_main_v16_apply, val_main_v15_apply, val_main_v14_apply, val_main_cst_apply, dots_apply]
  simp only [Ideal.hostDivf_def, Ideal.hostUnary_sqrt_def, Ideal.ofBits_def]
  unfold Cert.Spec.scoreR Cert.Spec.divisorR
  simp only [batchRow_tok]

end Cert.RefScores

end
-- ==== Proof.RefTail.lean ====
/-
  The second half of the reference, read at coordinates.  From the array of scores (batch b, head h, query row s,
  key row k) and the array of values (b, h, k, d) the reference takes, for every row (b, h, s), the maximum of the
  row, the exponentials of the differences, their sum and the quotients; multiplies the weights into the values;
  puts the 16 heads' 64 outputs side by side (column c is head c / 64, entry c % 64); and applies the output
  projection.  Each stage is read at an index here, and the last theorem reads the result at (b, s, e).
-/
import proofs.«401896_j14491219657281_3_alg».proof.Proof.Gen.ReferenceIdeal.Read
import proofs.«401896_j14491219657281_3_alg».proof.Proof.Spec

noncomputable section

open scoped BigOperators

namespace Cert.RefTail

open Cert.ReferenceIdeal Cert.ReferenceIdeal.Gen Idealize.ShloMosaic Idealize.ShloMosaic.ValueIdx Idealize.ShloMosaic.StableHlo

variable (x0 : (⟨S2x2048x1024, .f32⟩ : BufTy).Contents (Elt Ideal)) (x1 : (⟨S1024x3072, .f32⟩ : BufTy).Contents (Elt Ideal))
  (x2 : (⟨S3072, .f32⟩ : BufTy).Contents (Elt Ideal))

/-- The row maximum of the scores: the reduce over the last axis, from the word of −∞, is the fold of max over the
    2048 entries of the row (b, h, s). -/
theorem v17_at (b : Fin 2) (h : Fin 16) (s : Fin 2048) :
    Read.val_main_v17 (F := Ideal) x0 x1 x2 (ix3 b h s)
      = Cert.Spec.rowMax (fun k => Read.val_main_v16 (F := Ideal) x0 x1 x2 (ix4 b h s k)) := by
  unfold Read.val_main_v17
  generalize Read.val_main_v16 (F := Ideal) x0 x1 x2 = y
  have hr : S2x16x2048x2048.Reduces [3] S2x16x2048 := by decide
  refine Eq.trans (Host.reduce_eq_fold_single (α := Ideal .f32) FloatOps.maximumf y (Read.val_main_cst_0 (F := Ideal)) reducesTo_S2x16x2048x2048_S2x16x2048_d3 hr h_S_ (ix3 b h s)) ?_
  have hf : (y ∘ hr.lift (ix3 b h s)) = fun k : Fin 2048 => y (ix4 b h s k) :=
    funext fun k => congrArg y (funext fun c => Fin.ext (by fin_cases c <;> rfl))
  unfold Cert.Spec.rowMax Cert.Spec.negInf
  exact congrArg (fun f => Finset.fold max (Ideal.ofBits .f32 0xFF800000#32) f (Finset.univ : Finset (Fin 2048))) hf

/-- The maximum of the word of −∞ with the row maximum is the row maximum: a fold of max is at least the value it
    starts from. -/
theorem v19_at (b : Fin 2) (h : Fin 16) (s : Fin 2048) :
    Read.val_main_v19 (F := Ideal) x0 x1 x2 (ix3 b h s)
      = Cert.Spec.rowMax (fun k => Read.val_main_v16 (F := Ideal) x0 x1 x2 (ix4 b h s k)) := by
  rw [Read.val_main_v19_apply, Read.val_main_v18_apply, Read.val_main_cst_1_apply, v17_at]
  simp only [Ideal.maximumf_def, Ideal.ofBits_def]
  refine max_eq_right ?_
  unfold Cert.Spec.rowMax Cert.Spec.negInf
  exact (Finset.le_fold_max _).2 (Or.inl le_rfl)

/-- The shifted exponential at (b, h, s, k): the row maximum is broadcast back along the last axis. -/
theorem v23_at (b : Fin 2) (h : Fin 16) (s k : Fin 2048) :
    Read.val_main_v23 (F := Ideal) x0 x1 x2 (ix4 b h s k)
      = Cert.Spec.rowExp (fun k => Read.val_main_v16 (F := Ideal) x0 x1 x2 (ix4 b h s k)) k := by
  have e : Read.idx_main_v20 (Read.idx_main_v21 (ix4 b h s k)) = ix3 b h s :=
    funext fun a => Fin.ext (by match a with | ⟨0, _⟩ => rfl | ⟨1, _⟩ => rfl | ⟨2, _⟩ => rfl)
  rw [Read.val_main_v23_apply, Read.val_main_v22_apply, Read.val_main_v21_apply, Read.val_main_v20_apply, e, v19_at]
  simp only [Ideal.hostUnary_exp_def, Ideal.subf_def]
  rfl

/-- The row's sum of exponentials: the add-reduce starts from the zero word. -/
theorem v24_at (b : Fin 2) (h : Fin 16) (s : Fin 2048) :
    Read.val_main_v24 (F := Ideal) x0 x1 x2 (ix3 b h s)
      = Cert.Spec.rowSum (fun k => Read.val_main_v16 (F := Ideal) x0 x1 x2 (ix4 b h s k)) := by
  rw [Read.val_main_v24_apply, Read.val_main_cst_2_apply]
  simp only [Ideal.ofBits_def, Ideal.ofBits_zero_f32, zero_add]
  unfold Cert.Spec.rowSum
  refine Finset.sum_congr rfl fun k _ => ?_
  have e : Read.idx_main_v24 (ix3 b h s) k = ix4 b h s k :=
    funext fun a => Fin.ext (by match a with | ⟨0, _⟩ => rfl | ⟨1, _⟩ => rfl | ⟨2, _⟩ => rfl | ⟨3, _⟩ => rfl)
  rw [e, v23_at]

/-- The softmax weight at (b, h, s, k): the row's sum is broadcast back along the last axis. -/
theorem v27_at (b : Fin 2) (h : Fin 16) (s k : Fin 2048) :
    Read.val_main_v27 (F := Ideal) x0 x1 x2 (ix4 b h s k)
      = Cert.Spec.rowProb (fun k => Read.val_main_v16 (F := Ideal) x0 x1 x2 (ix4 b h s k)) k := by
  have e : Read.idx_main_v25 (Read.idx_main_v26 (ix4 b h s k)) = ix3 b h s :=
    funext fun a => Fin.ext (by match a with | ⟨0, _⟩ => rfl | ⟨1, _⟩ => rfl | ⟨2, _⟩ => rfl)
  rw [Read.val_main_v27_apply, Read.val_main_v26_apply, Read.val_main_v25_apply, e, v24_at, v23_at]
  simp only [Ideal.hostDivf_def]
  rfl

/-- The weights times the values, contracted over the key rows: entry d of head h's output for row (b, s). -/
theorem v28_at (b : Fin 2) (h : Fin 16) (s : Fin 2048) (d : Fin 64) :
    Read.val_main_v28 (F := Ideal) x0 x1 x2 (ix4 b h s d)
      = Cert.Spec.headOut (fun k => Read.val_main_v16 (F := Ideal) x0 x1 x2 (ix4 b h s k)) (fun k => Read.val_main_v12 (F := Ideal) x0 x1 x2 (ix4 b h k d)) := by
  rw [Read.val_main_v28_apply]
  unfold Cert.Spec.headOut
  refine Finset.sum_congr rfl fun k _ => ?_
  have el : Read.lidx_main_v28 (ix4 b h s d) k = ix4 b h s k :=
    funext fun a => Fin.ext (by match a with | ⟨0, _⟩ => rfl | ⟨1, _⟩ => rfl | ⟨2, _⟩ => rfl | ⟨3, _⟩ => rfl)
  have er : Read.ridx_main_v28 (ix4 b h s d) k = ix4 b h k d :=
    funext fun a => Fin.ext (by match a with | ⟨0, _⟩ => rfl | ⟨1, _⟩ => rfl | ⟨2, _⟩ => rfl | ⟨3, _⟩ => rfl)
  rw [el, er, v27_at]

/-- Heads side by side: column c of row (b, s) is head c / 64, entry c % 64 (the row-major split of 1024 into
    16 × 64, then the exchange of the head axis with the row axis). -/
theorem v30_at (b : Fin 2) (s : Fin 2048) (c : Fin 1024) :
    Read.val_main_v30 (F := Ideal) x0 x1 x2 (ix3 b s c)
      = Read.val_main_v28 (F := Ideal) x0 x1 x2
          (ix4 b (⟨c.val / 64, by omega⟩ : Fin 16) s (⟨c.val % 64, by omega⟩ : Fin 64)) := by
  have e : Read.idx_main_v29 (Read.idx_main_v30 (ix3 b s c))
      = ix4 b (⟨c.val / 64, by omega⟩ : Fin 16) s (⟨c.val % 64, by omega⟩ : Fin 64) :=
    funext fun a => Fin.ext (by
      have hb := b.isLt; have hs := s.isLt; have hc := c.isLt
      match a with
      | ⟨0, _⟩ => show ((b.val * 2048 + s.val) * 1024 + c.val) / 2097152 = b.val; omega
      | ⟨1, _⟩ => show ((b.val * 2048 + s.val) * 1024 + c.val) / 64 % 16 = c.val / 64; omega
      | ⟨2, _⟩ => show ((b.val * 2048 + s.val) * 1024 + c.val) / 1024 % 2048 = s.val; omega
      | ⟨3, _⟩ => show ((b.val * 2048 + s.val) * 1024 + c.val) % 64 = c.val % 64; omega)
  rw [Read.val_main_v30_apply, Read.val_main_v29_apply, e]

/-- The reference's result at (b, s, e): the attention row of (b, s), column c being head c / 64's entry c % 64,
    through the output projection, plus the bias. -/
theorem tail_apply (x3 : (⟨S1024x1024, .f32⟩ : BufTy).Contents (Elt Ideal)) (x4 : (⟨S1024, .f32⟩ : BufTy).Contents (Elt Ideal))
    (b : Fin 2) (s : Fin 2048) (e : Fin 1024) :
    Read.val_main_v34 (F := Ideal) x0 x1 x2 x3 x4 (ix3 b s e)
      = (∑ c : Fin 1024,
          Cert.Spec.headOut
            (fun k => Read.val_main_v16 (F := Ideal) x0 x1 x2 (ix4 b (⟨c.val / 64, by omega⟩ : Fin 16) s k))
            (fun k => Read.val_main_v12 (F := Ideal) x0 x1 x2 (ix4 b (⟨c.val / 64, by omega⟩ : Fin 16) k (⟨c.val % 64, by omega⟩ : Fin 64)))
          * x3 (ix2 c e)) + x4 (ix1 e) := by
  have e4 : Read.idx_main_v32 (Read.idx_main_v33 (ix3 b s e)) = ix1 e :=
    funext fun a => Fin.ext (by match a with | ⟨0, _⟩ => rfl)
  rw [Read.val_main_v34_apply, Read.val_main_v33_apply, Read.val_main_v32_apply, e4, Read.val_main_v31_apply]
  simp only [Ideal.addf_def]
  refine congrArg (· + x4 (ix1 e)) (Finset.sum_congr rfl fun c _ => ?_)
  have el : Read.lidx_main_v31 (ix3 b s e) c = ix3 b s c :=
    funext fun a => Fin.ext (by match a with | ⟨0, _⟩ => rfl | ⟨1, _⟩ => rfl | ⟨2, _⟩ => rfl)
  have er : Read.ridx_main_v31 (ix3 b s e) c = ix2 c e :=
    funext fun a => Fin.ext (by match a with | ⟨0, _⟩ => rfl | ⟨1, _⟩ => rfl)
  rw [el, er, v30_at, v28_at]

end Cert.RefTail

end
-- ==== Proof.Bridge.lean ====
/-
  The one law that joins the two programs' scores.  The kernel multiplies every query entry by the f32 word of
  1/8 and then takes the inner product with the key row; the reference takes the inner product and divides it by
  the square root of the f32 word of 64.  Over the extended reals these agree with no finiteness assumption:
  the first word is the real 1/8, the second the real 64 whose root is 8, division by the nonzero real 8 is the
  product with 1/8, and the product with a nonnegative real distributes over extended-real addition.
-/
import proofs.«401896_j14491219657281_3_alg».proof.Proof.Spec
import Mathlib.Data.EReal.Operations
import Mathlib.Data.EReal.Inv
import Mathlib.Analysis.Real.Sqrt

noncomputable section

open scoped BigOperators

namespace Cert.Bridge

open Idealize.ShloMosaic

/-! ## The two words -/

/-- The word 0x3E000000 is sign +, exponent 124, fraction 0: the real 2⁻³ = 1/8. -/
theorem scaleK_eq : Cert.Spec.scaleK = ((1 / 8 : ℝ) : EReal) := by
  unfold Cert.Spec.scaleK
  simp [Ideal.ofBits, Ideal.ieee, -EReal.coe_mul]
  norm_num

/-- The word 0x42800000 is sign +, exponent 133, fraction 0: the real 2⁶ = 64. -/
theorem word64_eq : Ideal.ofBits .f32 0x42800000#32 = ((64 : ℝ) : EReal) := by
  simp [Ideal.ofBits, Ideal.ieee, -EReal.coe_mul]
  norm_num

/-- The root of 64 = 8² is 8. -/
theorem divisorR_eq : Cert.Spec.divisorR = ((8 : ℝ) : EReal) := by
  unfold Cert.Spec.divisorR
  rw [word64_eq, Ideal.sqrt_coe, if_neg (by norm_num)]
  have h : Real.sqrt 64 = 8 := by
    rw [show (64 : ℝ) = 8 ^ 2 by norm_num, Real.sqrt_sq (by norm_num)]
  rw [h]

/-! ## A nonnegative real factor passes through a finite extended-real sum -/

/-- (Σ_i f i) · c = Σ_i f i · c for a real c ≥ 0 and arbitrary extended reals f i: by induction on the index
    set, each step the distributivity of a nonnegative finite factor over one extended-real addition. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ## The law -/

/-- Scaling each query entry by 1/8 before the inner product is dividing the inner product by √64. -/
theorem scoreK_eq_scoreR (Q : Fin 4096 → Fin 3072 → EReal) (r : Fin 4096) (h : Fin 16) (k : Fin 2048) :
    Cert.Spec.scoreK Q r h k = Cert.Spec.scoreR Q r h k := by
  unfold Cert.Spec.scoreK Cert.Spec.scoreR
  rw [scaleK_eq, divisorR_eq, Ideal.div_coe (by norm_num), sum_mul_coe_of_nonneg _ _ (by norm_num)]
  refine Finset.sum_congr rfl fun d _ => ?_
  exact mul_right_comm _ _ _

end Cert.Bridge

end
-- ==== Proof.lean ====
/-
  The claim: both programs run, leave their arguments as launched, and — over the extended reals, from memories
  that agree on the five arguments — return equal arrays.
  The kernel program's run (Proof/Run.lean) ends with every buffer at contents that Proof/KernelValue.lean reads at
  coordinates; the reference's run is its generated one, read at coordinates by Proof/RefTail.lean (softmax, the
  product with the values, the output projection) over Proof/RefScores.lean (the projection, the heads' queries,
  keys and values, the scores).  Both are the specification of Proof/Spec.lean but for the scores, where the kernel
  scales each query entry by 1/8 before the inner product and the reference divides the inner product by √64: one
  law of the extended reals (Proof/Bridge.lean), which needs no finiteness, so the precondition is never opened.
  The idealization rewrote nothing, so its conjunct is trivial; the word-level kernel's frame is the same run read
  at the other instance.
-/
import proofs.«401896_j14491219657281_3_alg».proof.Defs
import proofs.«401896_j14491219657281_3_alg».proof.Proof.Gen.Kernel
import proofs.«401896_j14491219657281_3_alg».proof.Proof.Gen.KernelIdeal
import proofs.«401896_j14491219657281_3_alg».proof.Proof.Gen.ReferenceIdeal
import proofs.«401896_j14491219657281_3_alg».proof.Proof.Gen.Pre_finite_inputs
import proofs.«401896_j14491219657281_3_alg».proof.Proof.Gen.ReferenceIdeal.Run
import proofs.«401896_j14491219657281_3_alg».proof.Proof.Gen.ReferenceIdeal.Read
import proofs.«401896_j14491219657281_3_alg».proof.Proof.Run
import proofs.«401896_j14491219657281_3_alg».proof.Proof.Bits.Run
import proofs.«401896_j14491219657281_3_alg».proof.Proof.HostReads
import proofs.«401896_j14491219657281_3_alg».proof.Proof.Bits.HostReads
import proofs.«401896_j14491219657281_3_alg».proof.Proof.KernelValue
import proofs.«401896_j14491219657281_3_alg».proof.Proof.RefScores
import proofs.«401896_j14491219657281_3_alg».proof.Proof.RefTail
import proofs.«401896_j14491219657281_3_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

/-- The word-level kernel program: the run's last contents at the five arguments are the launch contents. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W4_main_arg0 m c),
     (h c _ (Cert.Kernel.Hand.mem_uc Cert.Kernel.main_arg1 (by decide))).trans (Cert.Kernel.Hand.W4_main_arg1 m c),
     (h c _ (Cert.Kernel.Hand.mem_uc Cert.Kernel.main_arg2 (by decide))).trans (Cert.Kernel.Hand.W4_main_arg2 m c),
     (h c _ (Cert.Kernel.Hand.mem_uc Cert.Kernel.main_arg3 (by decide))).trans (Cert.Kernel.Hand.W4_main_arg3 m c),
     (h c _ (Cert.Kernel.Hand.mem_uc Cert.Kernel.main_arg4 (by decide))).trans (Cert.Kernel.Hand.W4_main_arg4 m c)⟩)
    (Cert.Kernel.Hand.run_all (F := Bits) m ρ)

/-- The idealized kernel program, likewise. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W4_main_arg0 m c),
     (h c _ (Cert.KernelIdeal.Hand.mem_uc Cert.KernelIdeal.main_arg1 (by decide))).trans (Cert.KernelIdeal.Hand.W4_main_arg1 m c),
     (h c _ (Cert.KernelIdeal.Hand.mem_uc Cert.KernelIdeal.main_arg2 (by decide))).trans (Cert.KernelIdeal.Hand.W4_main_arg2 m c),
     (h c _ (Cert.KernelIdeal.Hand.mem_uc Cert.KernelIdeal.main_arg3 (by decide))).trans (Cert.KernelIdeal.Hand.W4_main_arg3 m c),
     (h c _ (Cert.KernelIdeal.Hand.mem_uc Cert.KernelIdeal.main_arg4 (by decide))).trans (Cert.KernelIdeal.Hand.W4_main_arg4 m c)⟩)
    (Cert.KernelIdeal.Hand.run_all (F := Ideal) m ρ)

/-- The reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The two results are one array -/

open Cert.KernelIdeal.Hand in
/-- The reference's result, at memories agreeing with the kernel's on the arguments, is the kernel's result:
    index by index both are the output projection of the attention row over the projected array, the reference's
    scores the kernel's by the one law. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v34 m' c = W4 m c (Proc.devRef .tc Cert.KernelIdeal.main_v7) := by
  rw [Cert.ReferenceIdeal.Read.val_main_v34_eq, h0, h1, h2, h3, h4]
  funext i
  obtain ⟨b, s, e, rfl⟩ : ∃ (b : Fin 2) (s : Fin 2048) (e : Fin 1024), i = ix3 b s e := ⟨i 0, i 1, i 2, eq_ix3 i⟩
  refine (Cert.RefTail.tail_apply _ _ _ _ _ b s e).trans ((kernel_out m c b s e).trans ?_).symm
  unfold Cert.Spec.outE Cert.Spec.attRow Cert.Spec.attE
  refine congrArg (· + _) (Finset.sum_congr rfl fun cc _ => congrArg (· * _) ?_)
  refine congrArg₂ Cert.Spec.headOut (funext fun k => ?_) (funext fun k => ?_)
  · rw [Cert.RefScores.scores_apply, Cert.Bridge.scoreK_eq_scoreR]; rfl
  · rw [Cert.RefScores.values_apply]
    show Qk m c (Cert.Spec.batchRow (Cert.RefScores.tok b s) k) _ = _
    rw [Cert.RefScores.batchRow_tok]; rfl

/-! ## The claims -/

theorem algebraic : Cert.algebraic_KernelIdeal_ReferenceIdeal := by
  intro m ρ m' ρ' _ hagree
  refine ⟨fun c => Cert.KernelIdeal.Hand.W4 m c (Proc.devRef .tc Cert.KernelIdeal.main_v7), ?_, ?_⟩
  · exact (θ_run Cert.KernelIdeal.defs _ _).mono (fun r h c =>
      ⟨h c _ (Cert.KernelIdeal.Hand.mem_uc Cert.KernelIdeal.main_v7 (by decide)),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c),
       (h c _ (Cert.KernelIdeal.Hand.mem_uc Cert.KernelIdeal.main_arg4 (by decide))).trans (Cert.KernelIdeal.Hand.W4_main_arg4 m c)⟩)
      (Cert.KernelIdeal.Hand.run_all (F := Ideal) m ρ)
  · exact (θ_run Cert.ReferenceIdeal.defs _ _).mono (fun _ h c =>
      ⟨(h c).1.trans (result_eq m m' c (hagree c).1 (hagree c).2.1 (hagree c).2.2.1 (hagree c).2.2.2.1 (hagree c).2.2.2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
